-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S16x64x64x128 .f32) (main_arg1 : IVec S16x64x64x128 32) : IVec S_ 1 :=
  let main_v0 : IVec S16x64x64x128 32 := iotaInDim S16x64x64x128 32 1
  let main_v1 : IVec S16x64x64x128 32 := iotaInDim S16x64x64x128 32 2
  let main_v2 : FVec F S16x64x64x128 .f32 := Host.absf main_arg0
  let main_cst : FVec F S_ .f32 := constant S_ .f32 0x7F800000#32
  let main_v3 : FVec F S16x64x64x128 .f32 := broadcastInDim S16x64x64x128 ![] bcast_S_S16x64x64x128 main_cst
  let main_v4 : IVec S16x64x64x128 1 := cmpf .olt main_v2 main_v3
  let main_c : IVec S_ 1 := constantI S_ 1 1#1
  let main_v5 : IVec S_ 1 := (fun x v => Host.reduce IntOp.andi x v reducesTo_S16x64x64x128_S_d0_1_2_3 h_S_) main_v4 main_c
  let main_c_0 : IVec S_ 32 := constantI S_ 32 15#32
  let main_v6 : IVec S16x64x64x128 32 := broadcastInDim S16x64x64x128 ![] bcast_S_S16x64x64x128 main_c_0
  let main_v7 : IVec S16x64x64x128 32 := Host.shrsi main_arg1 main_v6
  let main_v8 : IVec S16x64x64x128 1 := cmpi .eq main_v7 main_v0
  let main_c_1 : IVec S_ 1 := constantI S_ 1 1#1
  let main_v9 : IVec S_ 1 := (fun x v => Host.reduce IntOp.andi x v reducesTo_S16x64x64x128_S_d0_1_2_3 h_S_) main_v8 main_c_1
  let main_v10 : IVec S_ 1 := andi main_v5 main_v9
  let main_c_2 : IVec S_ 32 := constantI S_ 32 8#32
  let main_v11 : IVec S16x64x64x128 32 := broadcastInDim S16x64x64x128 ![] bcast_S_S16x64x64x128 main_c_2
  let main_v12 : IVec S16x64x64x128 32 := Host.shrsi main_arg1 main_v11
  let main_c_3 : IVec S_ 32 := constantI S_ 32 63#32
  let main_v13 : IVec S16x64x64x128 32 := broadcastInDim S16x64x64x128 ![] bcast_S_S16x64x64x128 main_c_3
  let main_v14 : IVec S16x64x64x128 32 := andi main_v12 main_v13
  let main_v15 : IVec S16x64x64x128 1 := cmpi .eq main_v14 main_v1
  let main_c_4 : IVec S_ 1 := constantI S_ 1 1#1
  let main_v16 : IVec S_ 1 := (fun x v => Host.reduce IntOp.andi x v reducesTo_S16x64x64x128_S_d0_1_2_3 h_S_) main_v15 main_c_4
  fn_part1 (F := F) main_v10 main_v16
-- ==== Kernel.lean ====
abbrev S16x64x64x128 : Shape := ⟨4, ![16, 64, 64, 128]⟩
abbrev S16x64x2x64x256 : Shape := ⟨5, ![16, 64, 2, 64, 256]⟩
abbrev S1x32x64x128 : Shape := ⟨4, ![1, 32, 64, 128]⟩
abbrev S1x32x2x64x256 : Shape := ⟨5, ![1, 32, 2, 64, 256]⟩
abbrev S1x32x64x256 : Shape := ⟨4, ![1, 32, 64, 256]⟩
abbrev S1x32x1x64x256 : Shape := ⟨5, ![1, 32, 1, 64, 256]⟩
abbrev S16x128x128x128 : Shape := ⟨4, ![16, 128, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x64x2x64x256, .f32⟩
  | .hbm, ⟨3, _⟩ => ⟨S16x128x128x128, .f32⟩
  | .local _ .vmem, ⟨0, _⟩ => ⟨S1x32x64x128, .f32⟩
  | .local _ .vmem, ⟨1, _⟩ => ⟨S1x32x64x128, .f32⟩
  | .local _ .vmem, ⟨2, _⟩ => ⟨S1x32x64x128, .i32⟩
  | .local _ .vmem, ⟨3, _⟩ => ⟨S1x32x64x128, .i32⟩
  | .local _ .vmem, ⟨4, _⟩ => ⟨S1x32x2x64x256, .f32⟩
  | .local _ .vmem, ⟨5, _⟩ => ⟨S1x32x2x64x256, .f32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x64x128_S1x32x64x128_0_0_0_0 : ∀ a, (![0, 0, 0, 0] : Fin 4 → Nat) a + S1x32x64x128.size a ≤ S1x32x64x128.size a
  h_S1x32x64x128 : 0 < S1x32x64x128.numel
  concatenates_S1x32x64x128_S1x32x64x128_S1x32x64x256_d3 : Shape.Concatenates [S1x32x64x128, S1x32x64x128] S1x32x64x256 3
  inb_S1x32x2x64x256_S1x32x1x64x256_0_0_0_0_0 : ∀ a, (![0, 0, 0, 0, 0] : Fin 5 → Nat) a + S1x32x1x64x256.size a ≤ S1x32x2x64x256.size a
  h_S1x32x1x64x256 : 0 < S1x32x1x64x256.numel
  shapeCasts_S1x32x1x64x256_S1x32x64x256 : S1x32x1x64x256.ShapeCasts S1x32x64x256
  shapeCasts_S1x32x64x256_S1x32x1x64x256 : S1x32x64x256.ShapeCasts S1x32x1x64x256
  inb_S1x32x2x64x256_S1x32x1x64x256_0_0_1_0_0 : ∀ a, (![0, 0, 1, 0, 0] : Fin 5 → Nat) a + S1x32x1x64x256.size a ≤ S1x32x2x64x256.size a
  shapeCasts_S16x64x2x64x256_S16x128x128x128 : S16x64x2x64x256.ShapeCasts S16x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x128.size a ≤ S16x64x64x128.size a
  hwx0_0 : ∀ i : grid0.Coords, EltTy.bits .f32 = 32 ∨ (Rect.block (s := S16x64x64x128) S1x32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x128.size a ≤ S16x64x64x128.size a
  hwx0_1 : ∀ i : grid0.Coords, EltTy.bits .i32 = 32 ∨ (Rect.block (s := S16x64x64x128) S1x32x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x64x256.size a ≤ S16x64x2x64x256.size a
  hwx0_2 : ∀ i : grid0.Coords, EltTy.bits .f32 = 32 ∨ (Rect.block (s := S16x64x2x64x256) S1x32x2x64x256.size (cc0_transform_2 i) (hinb0_2 i)).WholeWords (EltTy.packing .f32)

variable [Facts₀]

abbrev win0_0 : Pipeline.Window sig grid0 :=
  Pipeline.Window.ofSpec (Memref.whole main_arg0) S1x32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x2x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S_ : Shape := ⟨0, ![]⟩
abbrev S16 : Shape := ⟨1, ![16]⟩
abbrev S16x1x1x1 : Shape := ⟨4, ![16, 1, 1, 1]⟩
abbrev S128 : Shape := ⟨1, ![128]⟩
abbrev S1x1x1x128 : Shape := ⟨4, ![1, 1, 1, 128]⟩
abbrev S16x128x128x128 : Shape := ⟨4, ![16, 128, 128, 128]⟩
abbrev S16x64x64x128x1 : Shape := ⟨5, ![16, 64, 64, 128, 1]⟩
abbrev S16x64x64x128x4 : Shape := ⟨5, ![16, 64, 64, 128, 4]⟩

abbrev nBuf : Space → Nat
  | .hbm => 102
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S_, .i32⟩
  | .hbm, ⟨3, _⟩ => ⟨S_, .i32⟩
  | .hbm, ⟨4, _⟩ => ⟨S16x64x64x128, .i32⟩
  | .hbm, ⟨5, _⟩ => ⟨S16x64x64x128, .i32⟩
  | .hbm, ⟨6, _⟩ => ⟨S16x64x64x128, .i32⟩
  | .hbm, ⟨7, _⟩ => ⟨S_, .i32⟩
  | .hbm, ⟨8, _⟩ => ⟨S16x64x64x128, .i32⟩
  | .hbm, ⟨9, _⟩ => ⟨S16x64x64x128, .i1⟩
  | .hbm, ⟨10, _⟩ => ⟨S16x64x64x128, .i32⟩
  | .hbm, ⟨11, _⟩ => ⟨S16x64x64x128, .i32⟩
  | .hbm, ⟨12, _⟩ => ⟨S_, .i32⟩
  | .hbm, ⟨13, _⟩ => ⟨S16x64x64x128, .i32⟩
  | .hbm, ⟨14, _⟩ => ⟨S16x64x64x128, .i1⟩
  | .hbm, ⟨15, _⟩ => ⟨S16x64x64x128, .i1⟩
  | .hbm, ⟨16, _⟩ => ⟨S_, .i32⟩
  | .hbm, ⟨17, _⟩ => ⟨S16x64x64x128, .i32⟩
  | .hbm, ⟨18, _⟩ => ⟨S16x64x64x128, .i32⟩
  | .hbm, ⟨19, _⟩ => ⟨S16x64x64x128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S16x64x64x128, .i32⟩
  | .hbm, ⟨27, _⟩ => ⟨S16x64x64x128, .i32⟩
  | .hbm, ⟨28, _⟩ => ⟨S_, .i32⟩
  | .hbm, ⟨29, _⟩ => ⟨S16x64x64x128, .i32⟩
  | .hbm, ⟨30, _⟩ => ⟨S16x64x64x128, .i1⟩
  | .hbm, ⟨31, _⟩ => ⟨S_, .i32⟩
  | .hbm, ⟨32, _⟩ => ⟨S16x64x64x128, .i32⟩
  | .hbm, ⟨33, _⟩ => ⟨S16x64x64x128, .i1⟩
  | .hbm, ⟨34, _⟩ => ⟨S_, .i32⟩
  | .hbm, ⟨35, _⟩ => ⟨S_, .i1⟩
  | .hbm, ⟨36, _⟩ => ⟨S16x64x64x128, .i1⟩
  | .hbm, ⟨37, _⟩ => ⟨S16x64x64x128, .i1⟩
  | .hbm, ⟨38, _⟩ => ⟨S16x64x64x128, .i1⟩
  | .hbm, ⟨39, _⟩ => ⟨S16x64x64x128, .i32⟩
  | .hbm, ⟨40, _⟩ => ⟨S16x64x64x128, .i32⟩
  | .hbm, ⟨41, _⟩ => ⟨S16x64x64x128, .i32⟩
  | .hbm, ⟨42, _⟩ => ⟨S_, .i32⟩
  | .hbm, ⟨43, _⟩ => ⟨S_, .i32⟩
  | .hbm, ⟨44, _⟩ => ⟨S16x64x64x128, .i32⟩
  | .hbm, ⟨45, _⟩ => ⟨S16x64x64x128, .i32⟩
  | .hbm, ⟨46, _⟩ => ⟨S16x64x64x128, .i32⟩
  | .hbm, ⟨47, _⟩ => ⟨S_, .i32⟩
  | .hbm, ⟨48, _⟩ => ⟨S16x64x64x128, .i32⟩
  | .hbm, ⟨49, _⟩ => ⟨S16x64x64x128, .i1⟩
  | .hbm, ⟨50, _⟩ => ⟨S16x64x64x128, .i32⟩
  | .hbm, ⟨51, _⟩ => ⟨S16x64x64x128, .i32⟩
  | .hbm, ⟨52, _⟩ => ⟨S_, .i32⟩
  | .hbm, ⟨53, _⟩ => ⟨S16x64x64x128, .i32⟩
  | .hbm, ⟨54, _⟩ => ⟨S16x64x64x128, .i1⟩
  | .hbm, ⟨55, _⟩ => ⟨S16x64x64x128, .i1⟩
  | .hbm, ⟨56, _⟩ => ⟨S_, .i32⟩
  | .hbm, ⟨57, _⟩ => ⟨S16x64x64x128, .i32⟩
  | .hbm, ⟨58, _⟩ => ⟨S16x64x64x128, .i32⟩
  | .hbm, ⟨59, _⟩ => ⟨S16x64x64x128, .i32⟩
  | .hbm, ⟨60, _⟩ => ⟨S16, .i32⟩
  | .hbm, ⟨61, _⟩ => ⟨S16x1x1x1, .i32⟩
  | .hbm, ⟨62, _⟩ => ⟨S16x64x64x128, .i32⟩
  | .hbm, ⟨63, _⟩ => ⟨S128, .i32⟩
  | .hbm, ⟨64, _⟩ => ⟨S1x1x1x128, .i32⟩
  | .hbm, ⟨65, _⟩ => ⟨S16x64x64x128, .i32⟩
  | .hbm, ⟨66, _⟩ => ⟨S_, .f32⟩
  | .hbm, ⟨67, _⟩ => ⟨S16x128x128x128, .f32⟩
  | .hbm, ⟨68, _⟩ => ⟨S_, .i32⟩
  | .hbm, ⟨69, _⟩ => ⟨S16x64x64x128, .i32⟩
  | .hbm, ⟨70, _⟩ => ⟨S16x64x64x128, .i1⟩
  | .hbm, ⟨71, _⟩ => ⟨S_, .i32⟩
  | .hbm, ⟨72, _⟩ => ⟨S16x64x64x128, .i32⟩
  | .hbm, ⟨73, _⟩ => ⟨S16x64x64x128, .i32⟩
  | .hbm, ⟨74, _⟩ => ⟨S16x64x64x128, .i32⟩
  | .hbm, ⟨75, _⟩ => ⟨S_, .i32⟩
  | .hbm, ⟨76, _⟩ => ⟨S16x64x64x128, .i32⟩
  | .hbm, ⟨77, _⟩ => ⟨S16x64x64x128, .i1⟩
  | .hbm, ⟨78, _⟩ => ⟨S_, .i32⟩
  | .hbm, ⟨79, _⟩ => ⟨S16x64x64x128, .i32⟩
  | .hbm, ⟨80, _⟩ => ⟨S16x64x64x128, .i32⟩
  | .hbm, ⟨81, _⟩ => ⟨S16x64x64x128, .i32⟩
  | .hbm, ⟨82, _⟩ => ⟨S_, .i32⟩
  | .hbm, ⟨83, _⟩ => ⟨S16x64x64x128, .i32⟩
  | .hbm, ⟨84, _⟩ => ⟨S16x64x64x128, .i1⟩
  | .hbm, ⟨85, _⟩ => ⟨S_, .i32⟩
  | .hbm, ⟨86, _⟩ => ⟨S16x64x64x128, .i32⟩
  | .hbm, ⟨87, _⟩ => ⟨S16x64x64x128, .i32⟩
  | .hbm, ⟨88, _⟩ => ⟨S16x64x64x128, .i32⟩
  | .hbm, ⟨89, _⟩ => ⟨S_, .i32⟩
  | .hbm, ⟨90, _⟩ => ⟨S16x64x64x128, .i32⟩
  | .hbm, ⟨91, _⟩ => ⟨S16x64x64x128, .i1⟩
  | .hbm, ⟨92, _⟩ => ⟨S_, .i32⟩
  | .hbm, ⟨93, _⟩ => ⟨S16x64x64x128, .i32⟩
  | .hbm, ⟨94, _⟩ => ⟨S16x64x64x128, .i32⟩
  | .hbm, ⟨95, _⟩ => ⟨S16x64x64x128, .i32⟩
  | .hbm, ⟨96, _⟩ => ⟨S16x64x64x128x1, .i32⟩
  | .hbm, ⟨97, _⟩ => ⟨S16x64x64x128x1, .i32⟩
  | .hbm, ⟨98, _⟩ => ⟨S16x64x64x128x1, .i32⟩
  | .hbm, ⟨99, _⟩ => ⟨S16x64x64x128x1, .i32⟩
  | .hbm, ⟨100, _⟩ => ⟨S16x64x64x128x4, .i32⟩
  | .hbm, ⟨101, _⟩ => ⟨S16x128x128x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_c_2 : Ref sig .tc := ⟨.hbm, 68, rfl⟩
abbrev main_v10 : Ref sig .tc := ⟨.hbm, 69, rfl⟩
abbrev main_v11 : Ref sig .tc := ⟨.hbm, 70, rfl⟩
abbrev main_c_3 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_c_4 : Ref sig .tc := ⟨.hbm, 75, rfl⟩
abbrev main_v15 : Ref sig .tc := ⟨.hbm, 76, rfl⟩
abbrev main_v16 : Ref sig .tc := ⟨.hbm, 77, rfl⟩
abbrev main_c_5 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_6 : Ref sig .tc := ⟨.hbm, 82, rfl⟩
abbrev main_v20 : Ref sig .tc := ⟨.hbm, 83, rfl⟩
abbrev main_v21 : Ref sig .tc := ⟨.hbm, 84, rfl⟩
abbrev main_c_7 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_c_8 : Ref sig .tc := ⟨.hbm, 89, rfl⟩
abbrev main_v25 : Ref sig .tc := ⟨.hbm, 90, rfl⟩
abbrev main_v26 : Ref sig .tc := ⟨.hbm, 91, rfl⟩
abbrev main_c_9 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S16x64x64x128 : S_.BroadcastsInDim S16x64x64x128 (![] : Fin 0 → Fin S16x64x64x128.rank)
  shapeCasts_S16_S16x1x1x1 : S16.ShapeCasts S16x1x1x1
  bcast_S16x1x1x1_S16x64x64x128_0_1_2_3 : S16x1x1x1.BroadcastsInDim S16x64x64x128 (![0, 1, 2, 3] : Fin 4 → Fin S16x64x64x128.rank)
  shapeCasts_S128_S1x1x1x128 : S128.ShapeCasts S1x1x1x128
  bcast_S1x1x1x128_S16x64x64x128_0_1_2_3 : S1x1x1x128.BroadcastsInDim S16x64x64x128 (![0, 1, 2, 3] : Fin 4 → Fin S16x64x64x128.rank)
  bcast_S_S16x128x128x128 : S_.BroadcastsInDim S16x128x128x128 (![] : Fin 0 → Fin S16x128x128x128.rank)
  bcast_S16x64x64x128_S16x64x64x128x1_0_1_2_3 : S16x64x64x128.BroadcastsInDim S16x64x64x128x1 (![0, 1, 2, 3] : Fin 4 → Fin S16x64x64x128x1.rank)
  concatenates_S16x64x64x128x1_S16x64x64x128x1_S16x64x64x128x1_S16x64x64x128x1_S16x64x64x128x4_d4 : Shape.Concatenates [S16x64x64x128x1, S16x64x64x128x1, S16x64x64x128x1, S16x64x64x128x1] S16x64x64x128x4 4
  scatter_S16x128x128x128_S16x64x64x128x4_S16x64x64x128_n_0123_0123_4_wf : ScatterDims.WF S16x128x128x128 S16x64x64x128x4 S16x64x64x128 [] [0, 1, 2, 3] [0, 1, 2, 3] 4

variable [Facts₀]

def scatter_S16x128x128x128_S16x64x64x128x4_S16x64x64x128_n_0123_0123_4 : ScatterDims S16x128x128x128 S16x64x64x128x4 S16x64x64x128 where
  updateWindowDims := []
  insertedWindowDims := [0, 1, 2, 3]
  scatterDimsToOperandDims := [0, 1, 2, 3]
  indexVectorDim := 4
  wf := scatter_S16x128x128x128_S16x64x64x128x4_S16x64x64x128_n_0123_0123_4_wf

class Facts : Prop extends Facts₀ where

variable [Facts]
-- ==== Proof.Spec.lean ====
/-
  What both programs compute, as one function of the two argument arrays.

  The input `x` is [16, 64, 64, 128] (batch, pooled row h, pooled column w, channel), the index array `a` has the
  same shape, and the output is [16, 128, 128, 128] (batch, row Y, column X, channel). Output position (Y, X) belongs to
  the pooled position (Y / 2, X / 2); it receives that pooled element exactly when the element's index word points
  at it inside the 2×2 window: bit 14 of the word is the row's parity and bit 7 is the column's parity (the flat index
  is (Y · 128 + X) · 128 + c, so bit 14 is Y's lowest bit and bit 7 is X's lowest bit). Every other output element is 0.

  `InWindow a h w` says that the word `a` decodes to an output position inside the window of the pooled position
  (h, w): its output row `a / 16384` is 2h or 2h + 1, and its output column `(a mod 16384) / 128` is 2w or 2w + 1.
-/
import Idealize.ShloMosaic.PureOps.Ideal
import Idealize.ShloMosaic.Lib.ValueIdx

noncomputable section

namespace Cert.Unpool

open Idealize.ShloMosaic Idealize.ShloMosaic.ValueIdx

abbrev SIn : Shape := ⟨4, ![16, 64, 64, 128]⟩
abbrev SOut : Shape := ⟨4, ![16, 128, 128, 128]⟩

/-- The pooled coordinate an output coordinate belongs to. -/
def half (Y : Fin 128) : Fin 64 := ⟨Y.val / 2, by omega⟩

/-- The output element at (b, Y, X, c): the pooled element of its window if that element's index word selects this
    corner of the window, and 0 otherwise. -/
def pick (x : FVec Ideal SIn .f32) (a : IVec SIn 32) (b : Fin 16) (Y X : Fin 128) (c : Fin 128) : EReal :=
  if (a (ix4 b (half Y) (half X) c)).getLsbD 14 = decide (Y.val % 2 = 1)
      ∧ (a (ix4 b (half Y) (half X) c)).getLsbD 7 = decide (X.val % 2 = 1)
  then x (ix4 b (half Y) (half X) c) else 0

/-- The whole output array. -/
def unpool (x : FVec Ideal SIn .f32) (a : IVec SIn 32) : FVec Ideal SOut .f32 :=
  fun i => pick x a (i 0) (i 1) (i 2) (i 3)

/-- The index word `a` names an output position inside the 2×2 window of the pooled position (h, w). -/
def InWindow (a : BitVec 32) (h w : Fin 64) : Prop :=
  a.toNat / 32768 = h.val ∧ (a.toNat / 256) % 64 = w.val

end Cert.Unpool

end
-- ==== Proof.KernelBits.lean ====
/-
  The index word's two parity bits as the vector unit computes them.

  The kernel tests a bit of a 32-bit word `n` by shifting it right (arithmetically) by the bit's position, masking with 1
  and comparing with 0: the result is the one-bit word "bit k of n is clear". Bit 0 of `n >>ₛ k` is bit `k` of `n` for
  every k below 32 (the sign fill only enters above bit 31 − k), so the mask leaves 1 when the bit is set and 0 when it is
  clear. The four select masks of the kernel are the four conjunctions of the two tests and their complements; each
  select is then an `if` on the pair (bit 14, bit 7).
-/
import Mathlib.Data.BitVec
import Idealize.ShloMosaic.PureOps.Float

namespace Cert.Unpool.Bits

open Idealize.ShloMosaic

/-- Bit 0 of an arithmetic right shift by `k` is bit `k` of the word; masking with 1 keeps only that bit. -/
theorem sshiftRight_and_one (n : BitVec 32) (k : Nat) (hk : k < 32) :
    n.sshiftRight k &&& 1#32 = if n.getLsbD k then 1#32 else 0#32 := by
  apply BitVec.eq_of_getLsbD_eq
  intro i hi
  rw [BitVec.getLsbD_and, BitVec.getLsbD_sshiftRight, BitVec.getLsbD_one]
  by_cases h0 : i = 0
  · subst h0
    cases hb : n.getLsbD k <;> simp [hb, hk]
  · cases hb : n.getLsbD k <;> simp [h0]

/-- The vector unit's test "bit 14 of the word is clear": shift right by 14, mask with 1, compare with 0. -/
abbrev clear14 (n : BitVec 32) : BitVec 1 :=
  IntOp.cmpi .eq (IntOp.andi (IntOp.shrsi .vector n 14#32) 1#32) 0#32

/-- The vector unit's test "bit 7 of the word is clear". -/
abbrev clear7 (n : BitVec 32) : BitVec 1 :=
  IntOp.cmpi .eq (IntOp.andi (IntOp.shrsi .vector n 7#32) 1#32) 0#32

/-- The shift amount 14 is below the width, so the shift is the arithmetic one, and the test reads bit 14. -/
theorem clear14_eq (n : BitVec 32) : clear14 n = BitVec.ofBool (!n.getLsbD 14) := by
  unfold clear14 IntOp.shrsi IntOp.andi IntOp.cmpi
  rw [if_pos (by decide)]
  show BitVec.ofBool (n.sshiftRight 14 &&& 1#32 == 0#32) = _
  rw [sshiftRight_and_one n 14 (by decide)]
  cases n.getLsbD 14 <;> rfl

/-- Likewise the test with shift amount 7 reads bit 7. -/
theorem clear7_eq (n : BitVec 32) : clear7 n = BitVec.ofBool (!n.getLsbD 7) := by
  unfold clear7 IntOp.shrsi IntOp.andi IntOp.cmpi
  rw [if_pos (by decide)]
  show BitVec.ofBool (n.sshiftRight 7 &&& 1#32 == 0#32) = _
  rw [sshiftRight_and_one n 7 (by decide)]
  cases n.getLsbD 7 <;> rfl

variable {α : Type}

/-- Row parity 0, column parity 0: the mask "bit 14 clear and bit 7 clear". -/
theorem select00 (n : BitVec 32) (a z : α) :
    Scalar.select (IntOp.andi (clear14 n) (clear7 n)) a z
      = if n.getLsbD 14 = false ∧ n.getLsbD 7 = false then a else z := by
  rw [clear14_eq, clear7_eq]
  cases n.getLsbD 14 <;> cases n.getLsbD 7 <;> rfl

/-- Row parity 0, column parity 1: the mask "bit 14 clear and bit 7 set". -/
theorem select01 (n : BitVec 32) (a z : α) :
    Scalar.select (IntOp.andi (clear14 n) (IntOp.xori (clear7 n) 1#1)) a z
      = if n.getLsbD 14 = false ∧ n.getLsbD 7 = true then a else z := by
  rw [clear14_eq, clear7_eq]
  cases n.getLsbD 14 <;> cases n.getLsbD 7 <;> rfl

/-- Row parity 1, column parity 0: the mask "bit 14 set and bit 7 clear". -/
theorem select10 (n : BitVec 32) (a z : α) :
    Scalar.select (IntOp.andi (IntOp.xori (clear14 n) 1#1) (clear7 n)) a z
      = if n.getLsbD 14 = true ∧ n.getLsbD 7 = false then a else z := by
  rw [clear14_eq, clear7_eq]
  cases n.getLsbD 14 <;> cases n.getLsbD 7 <;> rfl

/-- Row parity 1, column parity 1: the mask "bit 14 set and bit 7 set". -/
theorem select11 (n : BitVec 32) (a z : α) :
    Scalar.select (IntOp.andi (IntOp.xori (clear14 n) 1#1) (IntOp.xori (clear7 n) 1#1)) a z
      = if n.getLsbD 14 = true ∧ n.getLsbD 7 = true then a else z := by
  rw [clear14_eq, clear7_eq]
  cases n.getLsbD 14 <;> cases n.getLsbD 7 <;> rfl

end Cert.Unpool.Bits
-- ==== Proof.KernelBlock.lean ====
/-
  What the kernel's body leaves in the output block, read at one element.

  The body gets an input block `x0` and an index block `x1`, both [1, 32, 64, 128], and writes the output block
  [1, 32, 2, 64, 256] in two slabs, one per row parity `d`. Along the last axis the two column parities lie side by side:
  lane `l` holds column parity `l / 128` and channel `l mod 128`. The element at (r, d, w, l) is the input element at
  (r, w, l mod 128) when bit 14 of its index word is `d` and bit 7 is `l / 128`, and 0 otherwise.
-/
import proofs.«415876_j9646496547553_2_alg».proof.Proof.Gen.KernelIdeal.Frame
import proofs.«415876_j9646496547553_2_alg».proof.Proof.Spec
import proofs.«415876_j9646496547553_2_alg».proof.Proof.KernelBits
import Idealize.ShloMosaic.Lib.Pipeline.Value
import Idealize.ShloMosaic.Lib.ValueLayout
import Idealize.ShloMosaic.PureOps.Ideal.Laws

noncomputable section

namespace Cert.Unpool.Kernel

open Idealize.ShloMosaic Idealize.ShloMosaic.ValueIdx Cert.KernelIdeal

/-- The channel a lane of the output block holds. -/
def chanOf (l : Fin 256) : Fin 128 := ⟨l.val % 128, Nat.mod_lt _ (by decide)⟩

/-! ## Two stores read at an element

The block is written by two stores, the slab of row parity 1 last. An element under the later store reads that
store's payload; an element under the earlier store that the later one does not touch reads the earlier payload. -/

section TwoStores
variable {Val : EltTy → Type} [∀ e, Nonempty (Val e)] {S : Shape} {e : EltTy}

/-- An element under the later of two stores reads the later payload. -/
theorem canon_pair_later (rA rB : Rect S) (pA : rA.shape.Idx → Val e) (pB : rB.shape.Idx → Val e) (x : rA.shape.Idx) :
    View.canon [(⟨rA, pA⟩ : View.Piece Val S e), ⟨rB, pB⟩] (rA.emb x) = pA x :=
  View.canon_cons_emb rA pA _ x

/-- An element under the earlier of two stores and off the later one reads the earlier payload. -/
theorem canon_pair_earlier (rA rB : Rect S) (pA : rA.shape.Idx → Val e) (pB : rB.shape.Idx → Val e) (x : rB.shape.Idx)
    (h : rB.emb x ∉ rA.set) :
    View.canon [(⟨rA, pA⟩ : View.Piece Val S e), ⟨rB, pB⟩] (rB.emb x) = pB x :=
  (View.canon_cons_of_not_mem (⟨rA, pA⟩ : View.Piece Val S e) [⟨rB, pB⟩] h).trans (View.canon_cons_emb rB pB [] x)

end TwoStores

/-! ## Where the two slabs sit

Both slabs are unit-stride rectangles of extent [1, 32, 1, 64, 256]; they differ only in their offset on the row-parity
axis, 1 for the later store and 0 for the earlier. So the element (0, r, d, w, l) is the slab of parity d at its own
index (0, r, 0, w, l), and the parity-0 element is outside the parity-1 slab. -/

/-- The offsets of a load of a whole input block are all zero. -/
theorem zero_offsets : (![0, 0, 0, 0] : Fin 4 → Nat) = fun _ => 0 := by
  funext a; match a with | ⟨0, _⟩ => rfl | ⟨1, _⟩ => rfl | ⟨2, _⟩ => rfl | ⟨3, _⟩ => rfl

/-- The slab of row parity 1 holds the elements (0, r, 1, w, l). -/
theorem slab1_emb (r : Fin 32) (w : Fin 64) (l : Fin 256) :
    (ix5 (0 : Fin 1) r (1 : Fin 2) w l : S1x32x2x64x256.Idx) = Gen.r0_2.emb (ix5 (0 : Fin 1) r (0 : Fin 1) w l) := by
  funext a; apply Fin.ext
  match a with
  | ⟨0, _⟩ => rfl
  | ⟨1, _⟩ => show r.val = 0 + 1 * r.val; omega
  | ⟨2, _⟩ => rfl
  | ⟨3, _⟩ => show w.val = 0 + 1 * w.val; omega
  | ⟨4, _⟩ => show l.val = 0 + 1 * l.val; omega

/-- The slab of row parity 0 holds the elements (0, r, 0, w, l). -/
theorem slab0_emb (r : Fin 32) (w : Fin 64) (l : Fin 256) :
    (ix5 (0 : Fin 1) r (0 : Fin 2) w l : S1x32x2x64x256.Idx) = Gen.r0_1.emb (ix5 (0 : Fin 1) r (0 : Fin 1) w l) := by
  funext a; apply Fin.ext
  match a with
  | ⟨0, _⟩ => rfl
  | ⟨1, _⟩ => show r.val = 0 + 1 * r.val; omega
  | ⟨2, _⟩ => rfl
  | ⟨3, _⟩ => show w.val = 0 + 1 * w.val; omega
  | ⟨4, _⟩ => show l.val = 0 + 1 * l.val; omega

/-- An element of row parity 0 is not in the slab of row parity 1: that slab starts at 1 on the parity axis. -/
theorem slab0_not_mem (r : Fin 32) (w : Fin 64) (l : Fin 256) :
    Gen.r0_1.emb (ix5 (0 : Fin 1) r (0 : Fin 1) w l) ∉ Gen.r0_2.set := by
  rw [← slab0_emb r w l, Rect.mem_set_unit]
  intro h
  have h2 : (1 : ℕ) ≤ 0 := (h (2 : Fin 5)).1
  omega

/-- The block at row parity 1 is the later store's payload; the loads of the whole input blocks read the blocks. -/
theorem out_slab1 (x0 : Vec Ideal S1x32x64x128 .f32) (x1 : Vec Ideal S1x32x64x128 .i32)
    (r : Fin 32) (w : Fin 64) (l : Fin 256) :
    Gen.out0_2 x0 x1 (ix5 (0 : Fin 1) r (1 : Fin 2) w l)
      = Gen.k0_pay1 (Gen.k0_pay5 x0 x1) (ix5 (0 : Fin 1) r (0 : Fin 1) w l) := by
  unfold Gen.out0_2
  rw [View.ld_unit_zero (S := S1x32x64x128) zero_offsets _ x0, View.ld_unit_zero (S := S1x32x64x128) zero_offsets _ x1]
  exact (congrArg _ (slab1_emb r w l)).trans (canon_pair_later Gen.r0_2 Gen.r0_1 _ _ _)

/-- The block at row parity 0 is the earlier store's payload. -/
theorem out_slab0 (x0 : Vec Ideal S1x32x64x128 .f32) (x1 : Vec Ideal S1x32x64x128 .i32)
    (r : Fin 32) (w : Fin 64) (l : Fin 256) :
    Gen.out0_2 x0 x1 (ix5 (0 : Fin 1) r (0 : Fin 2) w l)
      = Gen.k0_pay6 x0 x1 (ix5 (0 : Fin 1) r (0 : Fin 1) w l) := by
  unfold Gen.out0_2
  rw [View.ld_unit_zero (S := S1x32x64x128) zero_offsets _ x0, View.ld_unit_zero (S := S1x32x64x128) zero_offsets _ x1]
  exact (congrArg _ (slab0_emb r w l)).trans (canon_pair_earlier Gen.r0_2 Gen.r0_1 _ _ _ (slab0_not_mem r w l))

/-! ## The layout operations of a payload, read at an element

A payload is a [1, 32, 64, 256] value — two [1, 32, 64, 128] halves side by side along the lane axis — viewed as
[1, 32, 1, 64, 256]. The view keeps the row-major position, ((r · 1 + 0) · 64 + w) · 256 + l = (r · 64 + w) · 256 + l; lane
l of the concatenation is lane l of the first half below 128 and lane l − 128 of the second half from 128 on, and
in both cases that lane is l mod 128. -/

section Layout
variable {α : Type}

/-- Inserting the unit row-parity axis keeps the row-major position. -/
theorem cast_apply (v : S1x32x64x256.Idx → α) (h : S1x32x64x256.ShapeCasts S1x32x1x64x256)
    (r : Fin 32) (w : Fin 64) (l : Fin 256) :
    shapeCast S1x32x1x64x256 v h (ix5 (0 : Fin 1) r (0 : Fin 1) w l) = v (ix4 (0 : Fin 1) r w l) :=
  shapeCast_apply v h _ _ (by
    rw [Shape.rowMajor_val_four, Shape.rowMajor_val_five]
    show ((0 * 32 + r.val) * 64 + w.val) * 256 + l.val = (((0 * 32 + r.val) * 1 + 0) * 64 + w.val) * 256 + l.val
    omega)

/-- The lower 128 lanes of the concatenation are the first half. -/
theorem cat_lo (a b : S1x32x64x128.Idx → α) (h : Shape.Concatenates [S1x32x64x128, S1x32x64x128] S1x32x64x256 3)
    (r : Fin 32) (w : Fin 64) (l : Fin 256) (hl : l.val < 128) :
    concatenate S1x32x64x256 3 [⟨S1x32x64x128, a⟩, ⟨S1x32x64x128, b⟩] h (ix4 (0 : Fin 1) r w l)
      = a (ix4 (0 : Fin 1) r w (chanOf l)) :=
  concatenate_pair_apply_left 3 a b h _ rfl _ (fun c => by
    match c with
    | ⟨0, _⟩ => rfl
    | ⟨1, _⟩ => rfl
    | ⟨2, _⟩ => rfl
    | ⟨3, _⟩ => show l.val % 128 = l.val; omega)

/-- The upper 128 lanes are the second half, 128 lanes down. -/
theorem cat_hi (a b : S1x32x64x128.Idx → α) (h : Shape.Concatenates [S1x32x64x128, S1x32x64x128] S1x32x64x256 3)
    (r : Fin 32) (w : Fin 64) (l : Fin 256) (hl : 128 ≤ l.val) :
    concatenate S1x32x64x256 3 [⟨S1x32x64x128, a⟩, ⟨S1x32x64x128, b⟩] h (ix4 (0 : Fin 1) r w l)
      = b (ix4 (0 : Fin 1) r w (chanOf l)) :=
  concatenate_pair_apply_right 3 a b h _ rfl rfl _
    (fun c hc => by
      match c with
      | ⟨0, _⟩ => rfl
      | ⟨1, _⟩ => rfl
      | ⟨2, _⟩ => rfl
      | ⟨3, _⟩ => exact absurd rfl hc)
    (by show l.val % 128 + 128 = l.val; have := l.isLt; omega)

end Layout

/-! ## The two payloads at an element

Every other operation of a payload is elementwise, so at the element (r, w, l mod 128) a half is one select on one
index word: the mask is the conjunction of the two bit tests (or their complements) that the half's row and column
parity name, the selected value is the input element, the other value the zero constant. The column parity of lane l is
l / 128: 0 in the first half, 1 in the second. -/

/-- The slab of row parity 1 at one element. -/
theorem pay_slab1 (x0 : Vec Ideal S1x32x64x128 .f32) (x1 : Vec Ideal S1x32x64x128 .i32)
    (r : Fin 32) (w : Fin 64) (l : Fin 256) :
    (Gen.k0_pay1 (Gen.k0_pay5 x0 x1) (ix5 (0 : Fin 1) r (0 : Fin 1) w l) : EReal)
      = if (x1 (ix4 (0 : Fin 1) r w (chanOf l)) : BitVec 32).getLsbD 14 = true
            ∧ (x1 (ix4 (0 : Fin 1) r w (chanOf l)) : BitVec 32).getLsbD 7 = decide (l.val / 128 = 1)
        then (x0 (ix4 (0 : Fin 1) r w (chanOf l)) : EReal) else 0 := by
  unfold Gen.k0_pay1
  refine (cast_apply _ _ r w l).trans ?_
  unfold Gen.k0_pay5
  by_cases hl : l.val < 128
  · refine (cat_lo _ _ _ r w l hl).trans ?_
    rw [show decide (l.val / 128 = 1) = false from decide_eq_false (by omega)]
    refine (Bits.select10 (α := Ideal .f32) (x1 (ix4 (0 : Fin 1) r w (chanOf l))) (x0 (ix4 (0 : Fin 1) r w (chanOf l)))
      (Scalar.ofBits (F := Ideal) .f32 0x00000000#32)).trans ?_
    rw [show (Scalar.ofBits (F := Ideal) .f32 0x00000000#32 : Ideal .f32) = 0 from Ideal.ofBits_zero_f32]
  · refine (cat_hi _ _ _ r w l (by omega)).trans ?_
    rw [show decide (l.val / 128 = 1) = true from decide_eq_true (by have := l.isLt; omega)]
    refine (Bits.select11 (α := Ideal .f32) (x1 (ix4 (0 : Fin 1) r w (chanOf l))) (x0 (ix4 (0 : Fin 1) r w (chanOf l)))
      (Scalar.ofBits (F := Ideal) .f32 0x00000000#32)).trans ?_
    rw [show (Scalar.ofBits (F := Ideal) .f32 0x00000000#32 : Ideal .f32) = 0 from Ideal.ofBits_zero_f32]

/-- The slab of row parity 0 at one element. -/
theorem pay_slab0 (x0 : Vec Ideal S1x32x64x128 .f32) (x1 : Vec Ideal S1x32x64x128 .i32)
    (r : Fin 32) (w : Fin 64) (l : Fin 256) :
    (Gen.k0_pay6 x0 x1 (ix5 (0 : Fin 1) r (0 : Fin 1) w l) : EReal)
      = if (x1 (ix4 (0 : Fin 1) r w (chanOf l)) : BitVec 32).getLsbD 14 = false
            ∧ (x1 (ix4 (0 : Fin 1) r w (chanOf l)) : BitVec 32).getLsbD 7 = decide (l.val / 128 = 1)
        then (x0 (ix4 (0 : Fin 1) r w (chanOf l)) : EReal) else 0 := by
  unfold Gen.k0_pay6
  refine (cast_apply _ _ r w l).trans ?_
  by_cases hl : l.val < 128
  · refine (cat_lo _ _ _ r w l hl).trans ?_
    rw [show decide (l.val / 128 = 1) = false from decide_eq_false (by omega)]
    refine (Bits.select00 (α := Ideal .f32) (x1 (ix4 (0 : Fin 1) r w (chanOf l))) (x0 (ix4 (0 : Fin 1) r w (chanOf l)))
      (Scalar.ofBits (F := Ideal) .f32 0x00000000#32)).trans ?_
    rw [show (Scalar.ofBits (F := Ideal) .f32 0x00000000#32 : Ideal .f32) = 0 from Ideal.ofBits_zero_f32]
  · refine (cat_hi _ _ _ r w l (by omega)).trans ?_
    rw [show decide (l.val / 128 = 1) = true from decide_eq_true (by have := l.isLt; omega)]
    refine (Bits.select01 (α := Ideal .f32) (x1 (ix4 (0 : Fin 1) r w (chanOf l))) (x0 (ix4 (0 : Fin 1) r w (chanOf l)))
      (Scalar.ofBits (F := Ideal) .f32 0x00000000#32)).trans ?_
    rw [show (Scalar.ofBits (F := Ideal) .f32 0x00000000#32 : Ideal .f32) = 0 from Ideal.ofBits_zero_f32]

/-! ## The block at an element -/

/-- The output block after the body, at one element. -/
theorem out0_2_apply (x0 : Vec Ideal S1x32x64x128 .f32) (x1 : Vec Ideal S1x32x64x128 .i32)
    (r : Fin 32) (d : Fin 2) (w : Fin 64) (l : Fin 256) :
    (Gen.out0_2 x0 x1 (ix5 (0 : Fin 1) r d w l) : EReal)
      = if (x1 (ix4 (0 : Fin 1) r w (chanOf l)) : BitVec 32).getLsbD 14 = decide (d.val = 1)
            ∧ (x1 (ix4 (0 : Fin 1) r w (chanOf l)) : BitVec 32).getLsbD 7 = decide (l.val / 128 = 1)
        then (x0 (ix4 (0 : Fin 1) r w (chanOf l)) : EReal) else 0 := by
  match d with
  | ⟨0, _⟩ => exact (out_slab0 x0 x1 r w l).trans (pay_slab0 x0 x1 r w l)
  | ⟨1, _⟩ => exact (out_slab1 x0 x1 r w l).trans (pay_slab1 x0 x1 r w l)

end Cert.Unpool.Kernel

end
-- ==== Proof.KernelArray.lean ====
/-
  The array the grid leaves, before the final reshape: one function of the two argument arrays.

  The intermediate array is [16, 64, 2, 64, 256]: batch b, pooled row h, row parity d, pooled column w, lane l, where lane l
  holds column parity l / 128 and channel l mod 128. Its element at (b, h, d, w, l) is the input element at
  (b, h, w, l mod 128) when bit 14 of that element's index word is d and bit 7 is l / 128, and 0 otherwise (`slabs`).

  The grid has 32 points, one per (batch, tile of 32 pooled rows). At a point the two input blocks are rows
  32 · tile … 32 · tile + 31 of one batch of the argument arrays, and the output block is the same rows of the intermediate
  array, both parities and all columns. So what a point writes back is its block of `slabs` (`flushed_eq`), the blocks
  cover the array (`covered`), and the array after the grid is `slabs` of the arguments (`final`).
-/
import proofs.«415876_j9646496547553_2_alg».proof.Proof.Gen.KernelIdeal.Frame
import proofs.«415876_j9646496547553_2_alg».proof.Proof.Spec
import proofs.«415876_j9646496547553_2_alg».proof.Proof.KernelBlock
import Idealize.ShloMosaic.Lib.Pipeline.Value

noncomputable section

namespace Cert.Unpool.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- One element of the intermediate array, by coordinates: batch, pooled row, row parity, pooled column, lane. -/
def slabElt (x : FVec Ideal SIn .f32) (a : IVec SIn 32) (b : Fin 16) (h : Fin 64) (d : Fin 2) (w : Fin 64) (l : Fin 256) : EReal :=
  if (a (ix4 b h w (chanOf l))).getLsbD 14 = decide (d.val = 1)
      ∧ (a (ix4 b h w (chanOf l))).getLsbD 7 = decide (l.val / 128 = 1)
  then x (ix4 b h w (chanOf l)) else 0

/-- The intermediate array [16, 64, 2, 64, 256] as one function of the two argument arrays. -/
def slabs (x : FVec Ideal SIn .f32) (a : IVec SIn 32) : S16x64x2x64x256.Idx → EReal :=
  fun i => slabElt x a (i 0) (i 1) (i 2) (i 3) (i 4)

/-- The three index maps over the grid: both inputs' blocks move with the output's block on the batch and row-tile axes
    and stay at block 0 on the others, and the output's block indices stay in their ranges. -/
theorem index_facts : ∀ t : Fin cfg0.N,
    win0_0.index t (0 : Fin 4) = win0_2.index t (0 : Fin 5)
    ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5)
    ∧ win0_1.index t (1 : Fin 4) = win0_2.index t (1 : Fin 5)
    ∧ win0_1.index t (2 : Fin 4) = 0 ∧ win0_1.index t (3 : Fin 4) = 0
    ∧ win0_2.index t (0 : Fin 5) ≤ 15 ∧ win0_2.index t (1 : Fin 5) ≤ 1
    ∧ win0_2.index t (2 : Fin 5) = 0 ∧ win0_2.index t (3 : Fin 5) = 0 ∧ win0_2.index t (4 : Fin 5) = 0 :=
  (by decide +kernel : ∀ t : Fin grid0.N, _)

/-- Every pair (batch, row tile) is some grid point's output block. -/
theorem index_onto : ∀ (q0 : Fin 16) (q1 : Fin 2), ∃ t : Fin cfg0.N, win0_2.index t = ![q0.val, q1.val, 0, 0, 0] :=
  (by decide +kernel : ∀ (q0 : Fin 16) (q1 : Fin 2), ∃ t : Fin grid0.N, win0_2.index t = ![q0.val, q1.val, 0, 0, 0])

/-- The input block, the index block and the two argument arrays at their literal types. -/
abbrev xblk (c : Dev nD) (t : Fin cfg0.N) : Vec Ideal S1x32x64x128 .f32 := iblk m c 0 t
abbrev ablk (c : Dev nD) (t : Fin cfg0.N) : Vec Ideal S1x32x64x128 .i32 := iblk m c 1 t
abbrev xarr (c : Dev nD) : Vec Ideal S16x64x64x128 .f32 := V m c main_arg0
abbrev aarr (c : Dev nD) : Vec Ideal S16x64x64x128 .i32 := V m c main_arg1

/-- An element of the input block at point `t` is the argument's element at block index × block size + the inner coordinate. -/
theorem xblk_apply (c : Dev nD) (t : Fin cfg0.N) (y : S1x32x64x128.Idx) (k : S16x64x64x128.Idx)
    (h0 : (k 0).val = win0_0.index t (0 : Fin 4) * 1 + (y 0).val)
    (h1 : (k 1).val = win0_0.index t (1 : Fin 4) * 32 + (y 1).val)
    (h2 : (k 2).val = win0_0.index t (2 : Fin 4) * 64 + (y 2).val)
    (h3 : (k 3).val = win0_0.index t (3 : Fin 4) * 128 + (y 3).val) :
    xblk m c t y = xarr m c k := by
  show ((cfg0.win 0).blk t).view.read (Elt Ideal) (V m c (Pipeline.arrRef spec0 0)) y = V m c main_arg0 k
  rw [View.read_apply]
  show V m c main_arg0 (((cfg0.win 0).blk t).view.emb y) = V m c main_arg0 k
  congr 1
  funext a
  apply Fin.ext
  match a with
  | ⟨0, _⟩ => show win0_0.index t (0 : Fin 4) * 1 + 1 * (y 0).val = (k 0).val; omega
  | ⟨1, _⟩ => show win0_0.index t (1 : Fin 4) * 32 + 1 * (y 1).val = (k 1).val; omega
  | ⟨2, _⟩ => show win0_0.index t (2 : Fin 4) * 64 + 1 * (y 2).val = (k 2).val; omega
  | ⟨3, _⟩ => show win0_0.index t (3 : Fin 4) * 128 + 1 * (y 3).val = (k 3).val; omega

/-- The same for the index block. -/
theorem ablk_apply (c : Dev nD) (t : Fin cfg0.N) (y : S1x32x64x128.Idx) (k : S16x64x64x128.Idx)
    (h0 : (k 0).val = win0_1.index t (0 : Fin 4) * 1 + (y 0).val)
    (h1 : (k 1).val = win0_1.index t (1 : Fin 4) * 32 + (y 1).val)
    (h2 : (k 2).val = win0_1.index t (2 : Fin 4) * 64 + (y 2).val)
    (h3 : (k 3).val = win0_1.index t (3 : Fin 4) * 128 + (y 3).val) :
    ablk m c t y = aarr m c k := by
  show ((cfg0.win 1).blk t).view.read (Elt Ideal) (V m c (Pipeline.arrRef spec0 1)) y = V m c main_arg1 k
  rw [View.read_apply]
  show V m c main_arg1 (((cfg0.win 1).blk t).view.emb y) = V m c main_arg1 k
  congr 1
  funext a
  apply Fin.ext
  match a with
  | ⟨0, _⟩ => show win0_1.index t (0 : Fin 4) * 1 + 1 * (y 0).val = (k 0).val; omega
  | ⟨1, _⟩ => show win0_1.index t (1 : Fin 4) * 32 + 1 * (y 1).val = (k 1).val; omega
  | ⟨2, _⟩ => show win0_1.index t (2 : Fin 4) * 64 + 1 * (y 2).val = (k 2).val; omega
  | ⟨3, _⟩ => show win0_1.index t (3 : Fin 4) * 128 + 1 * (y 3).val = (k 3).val; omega

/-- The output block after the body at one element, when the two blocks are rows `h r` of batch `b` of two arrays: that
    part of `slabs` of the arrays. Over variables of the literal types. -/
theorem out_block_apply (x0 : Vec Ideal S1x32x64x128 .f32) (x1 : Vec Ideal S1x32x64x128 .i32)
    (X : Vec Ideal S16x64x64x128 .f32) (A : Vec Ideal S16x64x64x128 .i32) (b : Fin 16) (h : Fin 32 → Fin 64)
    (hx : ∀ (r : Fin 32) (w : Fin 64) (ch : Fin 128), x0 (ix4 (0 : Fin 1) r w ch) = X (ix4 b (h r) w ch))
    (ha : ∀ (r : Fin 32) (w : Fin 64) (ch : Fin 128), x1 (ix4 (0 : Fin 1) r w ch) = A (ix4 b (h r) w ch))
    (r : Fin 32) (d : Fin 2) (w : Fin 64) (l : Fin 256) :
    (out0_2 x0 x1 (ix5 (0 : Fin 1) r d w l) : EReal) = slabElt X A b (h r) d w l := by
  rw [out0_2_apply, hx, ha]
  rfl

/-- The same at any index `y` of the block and any index `i` of the array with the matching coordinates. -/
theorem out_block_eq (x0 : Vec Ideal S1x32x64x128 .f32) (x1 : Vec Ideal S1x32x64x128 .i32)
    (X : Vec Ideal S16x64x64x128 .f32) (A : Vec Ideal S16x64x64x128 .i32) (b : Fin 16) (h : Fin 32 → Fin 64)
    (hx : ∀ (r : Fin 32) (w : Fin 64) (ch : Fin 128), x0 (ix4 (0 : Fin 1) r w ch) = X (ix4 b (h r) w ch))
    (ha : ∀ (r : Fin 32) (w : Fin 64) (ch : Fin 128), x1 (ix4 (0 : Fin 1) r w ch) = A (ix4 b (h r) w ch))
    (y : S1x32x2x64x256.Idx) (i : S16x64x2x64x256.Idx)
    (e0 : (i 0).val = b.val) (e1 : (i 1).val = (h (y 1)).val) (e2 : (i 2).val = (y 2).val)
    (e3 : (i 3).val = (y 3).val) (e4 : (i 4).val = (y 4).val) :
    (out0_2 x0 x1 y : EReal) = slabs X A i := by
  obtain ⟨y0, r, d, w, l, rfl⟩ : ∃ (y0 : Fin 1) (r : Fin 32) (d : Fin 2) (w : Fin 64) (l : Fin 256), y = ix5 y0 r d w l :=
    ⟨y 0, y 1, y 2, y 3, y 4, eq_ix5 y⟩
  obtain rfl : y0 = 0 := Subsingleton.elim _ _
  obtain ⟨i0, i1, i2, i3, i4, rfl⟩ : ∃ (i0 : Fin 16) (i1 : Fin 64) (i2 : Fin 2) (i3 : Fin 64) (i4 : Fin 256), i = ix5 i0 i1 i2 i3 i4 :=
    ⟨i 0, i 1, i 2, i 3, i 4, eq_ix5 i⟩
  obtain rfl : i0 = b := Fin.ext e0
  obtain rfl : i1 = h r := Fin.ext e1
  obtain rfl : i2 = d := Fin.ext e2
  obtain rfl : i3 = w := Fin.ext e3
  obtain rfl : i4 = l := Fin.ext e4
  exact out_block_apply x0 x1 X A i0 h hx ha r i2 i3 i4

/-- What grid point `t` writes back is block `t` of `slabs` of the argument arrays as the region finds them. -/
theorem flushed_eq (c : Dev nD) (t : Fin cfg0.N) :
    (dats m 0 c).flushed 2 t = ((cfg0.win 2).blk t).view.read (Elt Ideal) (slabs (xarr m c) (aarr m c)) := by
  show (cfg0.win 2).cut (grid0.coords t) ((dats m 0 c).after 2 t) = _
  rw [after0_2]
  obtain ⟨e0, e1, e2, e3, e4, e5, e6, e7, b0, b1, z2, z3, z4⟩ := index_facts t
  funext y
  show (out0_2 (xblk m c t) (ablk m c t) y : EReal) = slabs (xarr m c) (aarr m c) (((cfg0.win 2).blk t).view.emb y)
  refine out_block_eq (xblk m c t) (ablk m c t) (xarr m c) (aarr m c) ⟨win0_2.index t (0 : Fin 5), by omega⟩
    (fun r => ⟨win0_2.index t (1 : Fin 5) * 32 + r.val, by have := r.isLt; omega⟩)
    (fun r w ch => xblk_apply m c t (ix4 (0 : Fin 1) r w ch) _ ?_ ?_ ?_ ?_)
    (fun r w ch => ablk_apply m c t (ix4 (0 : Fin 1) r w ch) _ ?_ ?_ ?_ ?_) y _ ?_ ?_ ?_ ?_ ?_
  · show win0_2.index t (0 : Fin 5) = win0_0.index t (0 : Fin 4) * 1 + 0; omega
  · show win0_2.index t (1 : Fin 5) * 32 + r.val = win0_0.index t (1 : Fin 4) * 32 + r.val; omega
  · show w.val = win0_0.index t (2 : Fin 4) * 64 + w.val; omega
  · show ch.val = win0_0.index t (3 : Fin 4) * 128 + ch.val; omega
  · show win0_2.index t (0 : Fin 5) = win0_1.index t (0 : Fin 4) * 1 + 0; omega
  · show win0_2.index t (1 : Fin 5) * 32 + r.val = win0_1.index t (1 : Fin 4) * 32 + r.val; omega
  · show w.val = win0_1.index t (2 : Fin 4) * 64 + w.val; omega
  · show ch.val = win0_1.index t (3 : Fin 4) * 128 + ch.val; omega
  · show win0_2.index t (0 : Fin 5) * 1 + 1 * (y 0).val = win0_2.index t (0 : Fin 5)
    have : (y 0).val < 1 := (y 0).isLt
    omega
  · show win0_2.index t (1 : Fin 5) * 32 + 1 * (y 1).val = win0_2.index t (1 : Fin 5) * 32 + (y 1).val; omega
  · show win0_2.index t (2 : Fin 5) * 2 + 1 * (y 2).val = (y 2).val; omega
  · show win0_2.index t (3 : Fin 5) * 64 + 1 * (y 3).val = (y 3).val; omega
  · show win0_2.index t (4 : Fin 5) * 256 + 1 * (y 4).val = (y 4).val; omega

/-- An index of the intermediate array is in point `t`'s block iff each coordinate is in the block's range on its axis. -/
theorem mem_blk (t : Fin cfg0.N) (i : S16x64x2x64x256.Idx) :
    i ∈ ((cfg0.win 2).blk t).view.set ↔ ∀ a : Fin 5, win0_2.index t a * S1x32x2x64x256.size a ≤ (i a).val
      ∧ (i a).val < win0_2.index t a * S1x32x2x64x256.size a + S1x32x2x64x256.size a := by
  show i ∈ ((View.whole main_v0).slice (win0_2.rect t)).set ↔ _
  rw [View.set_slice_whole, Rect.mem_set_unit]
  exact Iff.rfl

/-- Every index of the intermediate array is in the block of the point whose batch is the index's and whose row tile
    is the index's pooled row divided by 32. -/
theorem covered (i : S16x64x2x64x256.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 2 := (i 2).isLt
  have hi3 : (i 3).val < 64 := (i 3).isLt
  have hi4 : (i 4).val < 256 := (i 4).isLt
  obtain ⟨t, ht⟩ := index_onto ⟨(i 0).val, hi0⟩ ⟨(i 1).val / 32, by omega⟩
  have q0 : win0_2.index t (0 : Fin 5) = (i 0).val := congrFun ht 0
  have q1 : win0_2.index t (1 : Fin 5) = (i 1).val / 32 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 32 ≤ (i 1).val ∧ (i 1).val < win0_2.index t (1 : Fin 5) * 32 + 32; omega
  | ⟨2, _⟩ => show win0_2.index t (2 : Fin 5) * 2 ≤ (i 2).val ∧ (i 2).val < win0_2.index t (2 : Fin 5) * 2 + 2; omega
  | ⟨3, _⟩ => show win0_2.index t (3 : Fin 5) * 64 ≤ (i 3).val ∧ (i 3).val < win0_2.index t (3 : Fin 5) * 64 + 64; omega
  | ⟨4, _⟩ => show win0_2.index t (4 : Fin 5) * 256 ≤ (i 4).val ∧ (i 4).val < win0_2.index t (4 : Fin 5) * 256 + 256; omega

/-- The intermediate array after the grid is `slabs` of the argument arrays. -/
theorem final (c : Dev nD) : (dats m 0 c).arrAt 2 cfg0.N = slabs (xarr m c) (aarr m c) :=
  (dats m 0 c).arrAt_eq_of_cover 2 _ (fun t _ => flushed_eq m c t) covered

end Cert.Unpool.Kernel

end
-- ==== Proof.KernelValue.lean ====
/-
  The kernel's program ends with its result array at `unpool` of its two argument arrays, the arguments unchanged.

  After the grid the intermediate array [16, 64, 2, 64, 256] is `slabs` of the arguments. The program's last line reshapes
  it to [16, 128, 128, 128]: row-major order is kept, so output (b, Y, X, c) is the intermediate element
  (b, Y / 2, Y mod 2, X / 2, (X mod 2) · 128 + c), because
  ((((b · 64 + Y / 2) · 2 + Y mod 2) · 64 + X / 2) · 256 + (X mod 2) · 128 + c = ((b · 128 + Y) · 128 + X) · 128 + c.
  That element is the pooled element (b, Y / 2, X / 2, c) when bit 14 of its index word is Y's parity and bit 7 is X's parity,
  else 0: `pick`.
-/
import proofs.«415876_j9646496547553_2_alg».proof.Proof.Gen.KernelIdeal.Frame
import proofs.«415876_j9646496547553_2_alg».proof.Proof.Spec
import proofs.«415876_j9646496547553_2_alg».proof.Proof.KernelBlock
import proofs.«415876_j9646496547553_2_alg».proof.Proof.KernelArray
import Idealize.ShloMosaic.Lib.Pipeline.Value
import Idealize.ShloMosaic.Lib.StableHlo.Run

noncomputable section

namespace Cert.Unpool.Kernel

open Idealize.ShloMosaic Idealize.SL.Sem Cert.KernelIdeal
open Idealize.ShloMosaic.TcCoe Idealize.ShloMosaic.ValueIdx Cert.KernelIdeal.Gen

/-- The row parity of an output row, as the intermediate array's coordinate. -/
def parity (Y : Fin 128) : Fin 2 := ⟨Y.val % 2, by omega⟩

/-- The lane holding column parity `X mod 2` and channel `ch`. -/
def lane (X : Fin 128) (ch : Fin 128) : Fin 256 := ⟨(X.val % 2) * 128 + ch.val, by omega⟩

theorem chanOf_lane (X ch : Fin 128) : chanOf (lane X ch) = ch :=
  Fin.ext (by show ((X.val % 2) * 128 + ch.val) % 128 = ch.val; omega)

theorem lane_div (X ch : Fin 128) : (lane X ch).val / 128 = X.val % 2 := by
  show ((X.val % 2) * 128 + ch.val) / 128 = X.val % 2; omega

/-- The intermediate element an output element is, is `pick`. -/
theorem slabElt_eq_pick (x : FVec Ideal SIn .f32) (a : IVec SIn 32) (b : Fin 16) (Y X ch : Fin 128) :
    slabElt x a b (half Y) (parity Y) (half X) (lane X ch) = pick x a b Y X ch := by
  unfold slabElt pick
  rw [chanOf_lane]
  have e : decide ((lane X ch).val / 128 = 1) = decide (X.val % 2 = 1) := decide_eq_decide.mpr (by rw [lane_div])
  rw [e]
  rfl

/-- The reshape [16, 64, 2, 64, 256] → [16, 128, 128, 128] read at an element. -/
theorem reshape_apply (G : S16x64x2x64x256.Idx → EReal) (hc : S16x64x2x64x256.ShapeCasts S16x128x128x128)
    (b : Fin 16) (Y X ch : Fin 128) :
    shapeCast S16x128x128x128 G hc (ix4 b Y X ch) = G (ix5 b (half Y) (parity Y) (half X) (lane X ch)) := by
  refine shapeCast_apply G hc (ix4 b Y X ch) (ix5 b (half Y) (parity Y) (half X) (lane X ch)) ?_
  rw [Shape.rowMajor_val_five, Shape.rowMajor_val_four]
  show (((b.val * 64 + Y.val / 2) * 2 + Y.val % 2) * 64 + X.val / 2) * 256 + ((X.val % 2) * 128 + ch.val)
    = ((b.val * 128 + Y.val) * 128 + X.val) * 128 + ch.val
  omega

/-- The reshape of `slabs` is `unpool`. -/
theorem reshape_slabs (x : FVec Ideal SIn .f32) (a : IVec SIn 32) (hc : S16x64x2x64x256.ShapeCasts S16x128x128x128) :
    shapeCast S16x128x128x128 (slabs x a) hc = unpool x a := by
  funext i
  obtain ⟨b, Y, X, ch, rfl⟩ : ∃ (b : Fin 16) (Y X ch : Fin 128), i = ix4 b Y X ch := ⟨i 0, i 1, i 2, i 3, eq_ix4 i⟩
  rw [reshape_apply]
  exact slabElt_eq_pick x a b Y X ch

variable (m : (ℓ : Loc nD τ sig) → Buf (Elt Ideal) ℓ)

/-- The result buffer after the program's last line. -/
theorem tail_eq (c : Dev nD) :
    Pipeline.afterTail₀ cfgs (dats m) 0 (V0 m) [hostOps1] c main_v1
      = unpool (m ((c.tc : Thread nD τ).loc main_arg0)) (m ((c.tc : Thread nD τ).loc main_arg1)) := by
  unfold Pipeline.afterTail₀
  show StableHlo.after hostOps1 _ (Proc.devRef .tc main_v1) = _
  after_results
  have hmid : Pipeline.withArrays (cfgs 0).spec c (V0 m c) (fun w => (dats m 0 c).arrAt w (cfgs 0).N) (Proc.tc.devRef main_v0)
      = slabs (xarr m c) (aarr m c) :=
    (Pipeline.withArrays_arr spec0 launch0.win.arr_inj c _ _ 2).trans (final m c)
  rw [hmid]
  exact reshape_slabs (xarr m c) (aarr m c) _

/-- Every weakly fair execution of the kernel's program at the ideal instance terminates with the result array at
    `unpool` of the argument arrays and the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = Cert.Unpool.unpool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Unpool.Kernel

end
-- ==== Proof.RefTerm.lean ====
/-
  The reference's result as one pure term of its two argument arrays: the host operations of its program composed in
  order, the three called functions (the floor division by 16384, the remainder by 16384, the floor division by 128)
  written out once each.

  The output row of an index word is `floorDiv a 16384`, its output column `floorDiv (remainder a 16384) 128`; the
  batch and the channel are the element's own; each of the four index components is wrapped once if negative (a
  negative index counts from the end); the four are stacked along a last axis of extent 4 and the input is
  scatter-added at them into zeros.
-/
import proofs.«415876_j9646496547553_2_alg».proof.ReferenceIdeal
import proofs.«415876_j9646496547553_2_alg».proof.Proof.Gen.ReferenceIdeal

noncomputable section

namespace Cert.Unpool.Ref

open Idealize.ShloMosaic Cert.ReferenceIdeal Cert.ReferenceIdeal.Facts₀

variable {F : FTy → Type} [FloatOps F]

/-- A scalar word spread over the input's shape. -/
abbrev spread (d : IVec S_ 32) : IVec S16x64x64x128 32 := broadcastInDim S16x64x64x128 ![] bcast_S_S16x64x64x128 d

/-- jnp's floor division of a tensor by a scalar: the truncating quotient, less one where the signs differ and the
    remainder is not zero. -/
def floorDiv (x : IVec S16x64x64x128 32) (d : IVec S_ 32) : IVec S16x64x64x128 32 :=
  select
    (andi (cmpi .ne (signi x) (broadcastInDim S16x64x64x128 ![] bcast_S_S16x64x64x128 (signi d)))
      (cmpi .ne (Host.remsi x (spread d)) (spread (constantI S_ 32 0#32))))
    (subi (Host.divsi x (spread d)) (spread (constantI S_ 32 1#32)))
    (Host.divsi x (spread d))

/-- The divisor jnp's remainder really divides by: 1 in place of 0. -/
def safeDivisor (d : IVec S_ 32) : IVec S_ 32 := select (cmpi .eq d (constantI S_ 32 0#32)) (constantI S_ 32 1#32) d

/-- jnp's remainder of a tensor by a scalar: the truncating remainder, plus the divisor where it is not zero and its
    sign differs from the divisor's. -/
def remainder (x : IVec S16x64x64x128 32) (d : IVec S_ 32) : IVec S16x64x64x128 32 :=
  select
    (andi
      (cmpi .ne (cmpi .slt (Host.remsi x (spread (safeDivisor d))) (spread (constantI S_ 32 0#32)))
        (broadcastInDim S16x64x64x128 ![] bcast_S_S16x64x64x128 (cmpi .slt (safeDivisor d) (constantI S_ 32 0#32))))
      (cmpi .ne (Host.remsi x (spread (safeDivisor d))) (spread (constantI S_ 32 0#32))))
    (addi (Host.remsi x (spread (safeDivisor d))) (spread (safeDivisor d)))
    (Host.remsi x (spread (safeDivisor d)))

/-- A negative index counts from the end of its axis of extent `n`. -/
def wrap (v : IVec S16x64x64x128 32) (n : BitVec 32) : IVec S16x64x64x128 32 :=
  select (cmpi .slt v (spread (constantI S_ 32 0#32))) (addi v (spread (constantI S_ 32 n))) v

/-- The element's own batch. -/
def batchIdx : IVec S16x64x64x128 32 :=
  broadcastInDim S16x64x64x128 ![0, 1, 2, 3] bcast_S16x1x1x1_S16x64x64x128_0_1_2_3
    (shapeCast S16x1x1x1 (iotaInDim S16 32 0) shapeCasts_S16_S16x1x1x1)

/-- The element's own channel. -/
def chanIdx : IVec S16x64x64x128 32 :=
  broadcastInDim S16x64x64x128 ![0, 1, 2, 3] bcast_S1x1x1x128_S16x64x64x128_0_1_2_3
    (shapeCast S1x1x1x128 (iotaInDim S128 32 0) shapeCasts_S128_S1x1x1x128)

/-- The output row an index word names. -/
def rowIdx (a : IVec S16x64x64x128 32) : IVec S16x64x64x128 32 := floorDiv a (constantI S_ 32 16384#32)

/-- The output column an index word names. -/
def colIdx (a : IVec S16x64x64x128 32) : IVec S16x64x64x128 32 :=
  floorDiv (remainder a (constantI S_ 32 16384#32)) (constantI S_ 32 128#32)

/-- One index component as a last axis of extent 1. -/
abbrev asColumn (v : IVec S16x64x64x128 32) : IVec S16x64x64x128x1 32 :=
  broadcastInDim S16x64x64x128x1 ![0, 1, 2, 3] bcast_S16x64x64x128_S16x64x64x128x1_0_1_2_3 v

/-- The scatter indices: (batch, row, column, channel) of every input element. -/
def refIdx (a : IVec S16x64x64x128 32) : IVec S16x64x64x128x4 32 :=
  concatenate S16x64x64x128x4 4
    [⟨S16x64x64x128x1, asColumn (wrap batchIdx 16#32)⟩, ⟨S16x64x64x128x1, asColumn (wrap (rowIdx a) 128#32)⟩,
     ⟨S16x64x64x128x1, asColumn (wrap (colIdx a) 128#32)⟩, ⟨S16x64x64x128x1, asColumn (wrap chanIdx 128#32)⟩]
    concatenates_S16x64x64x128x1_S16x64x64x128x1_S16x64x64x128x1_S16x64x64x128x1_S16x64x64x128x4_d4

/-- The reference's result: the input scatter-added into zeros at those indices. -/
def refOut (x : FVec F S16x64x64x128 .f32) (a : IVec S16x64x64x128 32) : FVec F S16x128x128x128 .f32 :=
  Host.scatterAdd scatter_S16x128x128x128_S16x64x64x128x4_S16x64x64x128_n_0123_0123_4
    (broadcastInDim S16x128x128x128 ![] bcast_S_S16x128x128x128 (constant S_ .f32 0x00000000#32)) (refIdx a) x

end Cert.Unpool.Ref

end
-- ==== Proof.RefRun.lean ====
/-
  The reference's program is a straight line of host operations (its three called functions unfolded at their calls);
  it ends with its result array at `refOut` of its two argument arrays, the arguments unchanged.
-/
import proofs.«415876_j9646496547553_2_alg».proof.Proof.RefTerm
import Idealize.ShloMosaic.Lib.StableHlo.Run
import Idealize.ShloMosaic.PureOps.Ideal

noncomputable section

namespace Cert.Unpool.Ref

open Idealize.ShloMosaic Idealize.SL.Sem Cert.ReferenceIdeal

/-! ## The program as one straight line

The program's own operations in order, each called function's operations written at its call over that call's
buffers: the constant 16384 and the floor division of the index words by it (sixteen operations and the final
select); the constant 16384 again and the remainder by it (twenty-one); the constant 128 and the floor division of
that remainder by it (seventeen again); the batch and channel coordinates (two iotas, each reshaped and spread); the zero
array; the four wraps of a negative index (seven operations each); the four components as columns; their
concatenation; the scatter-add of the input into the zero array. One hundred operations. -/

namespace Line

open Idealize.ShloMosaic.StableHlo Idealize.ShloMosaic.TcCoe Cert.ReferenceIdeal.Facts₀

variable {F : FTy → Type} [FloatOps F]

/-- The hundred operations, in program order. -/
abbrev ops : List (HloOp τ sig (Elt F)) :=
  [ nullary main_c (constantI S_ 32 16384#32),
    TRef.unary (.of main_c) main_call0.v0 id,
    TRef.unary main_call0.v0 main_call0.v1 (broadcastInDim S16x64x64x128 ![] bcast_S_S16x64x64x128),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S16x64x64x128 ![] bcast_S_S16x64x64x128),
    TRef.binary main_call0.v3 main_call0.v5 main_call0.v6 (cmpi .ne),
    TRef.unary main_call0.v0 main_call0.v7 (broadcastInDim S16x64x64x128 ![] bcast_S_S16x64x64x128),
    TRef.binary (.of main_arg1) main_call0.v7 main_call0.v8 Host.remsi,
    TRef.nullary main_call0.c (constantI S_ 32 0#32),
    TRef.unary main_call0.c main_call0.v9 (broadcastInDim S16x64x64x128 ![] bcast_S_S16x64x64x128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16x64x64x128 ![] bcast_S_S16x64x64x128),
    TRef.binary main_call0.v2 main_call0.v12 main_call0.v13 subi,
    TRef.ternary main_call0.v11 main_call0.v13 main_call0.v2 main_call0.call0.v0 select,
    nullary main_c_0 (constantI S_ 32 16384#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S16x64x64x128 ![] bcast_S_S16x64x64x128),
    TRef.binary (.of main_arg1) main_call1.v3 main_call1.v4 Host.remsi,
    TRef.nullary main_call1.c_1 (constantI S_ 32 0#32),
    TRef.unary main_call1.c_1 main_call1.v5 (broadcastInDim S16x64x64x128 ![] bcast_S_S16x64x64x128),
    TRef.binary main_call1.v4 main_call1.v5 main_call1.v6 (cmpi .ne),
    TRef.nullary main_call1.c_2 (constantI S_ 32 0#32),
    TRef.unary main_call1.c_2 main_call1.v7 (broadcastInDim S16x64x64x128 ![] bcast_S_S16x64x64x128),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S16x64x64x128 ![] bcast_S_S16x64x64x128),
    TRef.binary main_call1.v8 main_call1.v10 main_call1.v11 (cmpi .ne),
    TRef.binary main_call1.v11 main_call1.v6 main_call1.v12 andi,
    TRef.unary main_call1.call0.v0 main_call1.v13 (broadcastInDim S16x64x64x128 ![] bcast_S_S16x64x64x128),
    TRef.binary main_call1.v4 main_call1.v13 main_call1.v14 addi,
    TRef.ternary main_call1.v12 main_call1.v14 main_call1.v4 main_call1.v15 select,
    nullary main_c_1 (constantI S_ 32 128#32),
    TRef.unary (.of main_c_1) main_call2.v0 id,
    TRef.unary main_call2.v0 main_call2.v1 (broadcastInDim S16x64x64x128 ![] bcast_S_S16x64x64x128),
    TRef.binary (.of main_v1) main_call2.v1 main_call2.v2 Host.divsi,
    TRef.unary (.of main_v1) main_call2.v3 signi,
    TRef.unary main_call2.v0 main_call2.v4 signi,
    TRef.unary main_call2.v4 main_call2.v5 (broadcastInDim S16x64x64x128 ![] bcast_S_S16x64x64x128),
    TRef.binary main_call2.v3 main_call2.v5 main_call2.v6 (cmpi .ne),
    TRef.unary main_call2.v0 main_call2.v7 (broadcastInDim S16x64x64x128 ![] bcast_S_S16x64x64x128),
    TRef.binary (.of main_v1) main_call2.v7 main_call2.v8 Host.remsi,
    TRef.nullary main_call2.c (constantI S_ 32 0#32),
    TRef.unary main_call2.c main_call2.v9 (broadcastInDim S16x64x64x128 ![] bcast_S_S16x64x64x128),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S16x64x64x128 ![] bcast_S_S16x64x64x128),
    TRef.binary main_call2.v2 main_call2.v12 main_call2.v13 subi,
    TRef.ternary main_call2.v11 main_call2.v13 main_call2.v2 main_call2.call0.v0 select,
    nullary main_v3 (iotaInDim S16 32 0),
    reshape main_v3 main_v4 rfl shapeCasts_S16_S16x1x1x1,
    unary main_v4 main_v5 (broadcastInDim S16x64x64x128 ![0, 1, 2, 3] bcast_S16x1x1x1_S16x64x64x128_0_1_2_3),
    nullary main_v6 (iotaInDim S128 32 0),
    reshape main_v6 main_v7 rfl shapeCasts_S128_S1x1x1x128,
    unary main_v7 main_v8 (broadcastInDim S16x64x64x128 ![0, 1, 2, 3] bcast_S1x1x1x128_S16x64x64x128_0_1_2_3),
    nullary main_cst (constant S_ .f32 0x00000000#32),
    unary main_cst main_v9 (broadcastInDim S16x128x128x128 ![] bcast_S_S16x128x128x128),
    nullary main_c_2 (constantI S_ 32 0#32),
    unary main_c_2 main_v10 (broadcastInDim S16x64x64x128 ![] bcast_S_S16x64x64x128),
    binary main_v5 main_v10 main_v11 (cmpi .slt),
    nullary main_c_3 (constantI S_ 32 16#32),
    unary main_c_3 main_v12 (broadcastInDim S16x64x64x128 ![] bcast_S_S16x64x64x128),
    binary main_v5 main_v12 main_v13 addi,
    ternary main_v11 main_v13 main_v5 main_v14 select,
    nullary main_c_4 (constantI S_ 32 0#32),
    unary main_c_4 main_v15 (broadcastInDim S16x64x64x128 ![] bcast_S_S16x64x64x128),
    binary main_v0 main_v15 main_v16 (cmpi .slt),
    nullary main_c_5 (constantI S_ 32 128#32),
    unary main_c_5 main_v17 (broadcastInDim S16x64x64x128 ![] bcast_S_S16x64x64x128),
    binary main_v0 main_v17 main_v18 addi,
    ternary main_v16 main_v18 main_v0 main_v19 select,
    nullary main_c_6 (constantI S_ 32 0#32),
    unary main_c_6 main_v20 (broadcastInDim S16x64x64x128 ![] bcast_S_S16x64x64x128),
    binary main_v2 main_v20 main_v21 (cmpi .slt),
    nullary main_c_7 (constantI S_ 32 128#32),
    unary main_c_7 main_v22 (broadcastInDim S16x64x64x128 ![] bcast_S_S16x64x64x128),
    binary main_v2 main_v22 main_v23 addi,
    ternary main_v21 main_v23 main_v2 main_v24 select,
    nullary main_c_8 (constantI S_ 32 0#32),
    unary main_c_8 main_v25 (broadcastInDim S16x64x64x128 ![] bcast_S_S16x64x64x128),
    binary main_v8 main_v25 main_v26 (cmpi .slt),
    nullary main_c_9 (constantI S_ 32 128#32),
    unary main_c_9 main_v27 (broadcastInDim S16x64x64x128 ![] bcast_S_S16x64x64x128),
    binary main_v8 main_v27 main_v28 addi,
    ternary main_v26 main_v28 main_v8 main_v29 select,
    unary main_v14 main_v30 (broadcastInDim S16x64x64x128x1 ![0, 1, 2, 3] bcast_S16x64x64x128_S16x64x64x128x1_0_1_2_3),
    unary main_v19 main_v31 (broadcastInDim S16x64x64x128x1 ![0, 1, 2, 3] bcast_S16x64x64x128_S16x64x64x128x1_0_1_2_3),
    unary main_v24 main_v32 (broadcastInDim S16x64x64x128x1 ![0, 1, 2, 3] bcast_S16x64x64x128_S16x64x64x128x1_0_1_2_3),
    unary main_v29 main_v33 (broadcastInDim S16x64x64x128x1 ![0, 1, 2, 3] bcast_S16x64x64x128_S16x64x64x128x1_0_1_2_3),
    nary ![main_v30, main_v31, main_v32, main_v33] main_v34 (fun u => concatenate S16x64x64x128x4 4 [⟨S16x64x64x128x1, u 0⟩, ⟨S16x64x64x128x1, u 1⟩, ⟨S16x64x64x128x1, u 2⟩, ⟨S16x64x64x128x1, u 3⟩] concatenates_S16x64x64x128x1_S16x64x64x128x1_S16x64x64x128x1_S16x64x64x128x1_S16x64x64x128x4_d4),
    ternary main_v9 main_v34 main_arg0 main_v35 (fun x i u => Host.scatterAdd scatter_S16x128x128x128_S16x64x64x128x4_S16x64x64x128_n_0123_0123_4 x i u) ]

set_option maxRecDepth 8192 in
set_option maxHeartbeats 4000000 in
/-- The program is that line: a call is its function's body at the call's buffers, and sequencing a sequence is
    sequencing its steps, both by computation. -/
theorem main_eq (c : Dev nD) : main (F := F) c = seq ops := rfl

attribute [local irreducible] Host.scatterAdd concatenate Host.divsi Host.remsi broadcastInDim select cmpi andi subi addi signi iotaInDim shapeCast constantI constant in
set_option maxRecDepth 16384 in
set_option maxHeartbeats 4000000 in
/-- Folding the line over any starting contents leaves the result buffer at `refOut` of the two argument buffers'
    contents: each operation's result is read where it was written and every other buffer is passed through, so the
    fold at the result buffer is the composition of the operations' functions along the data flow, which is `refOut`
    unfolded. The elementwise, layout and scatter operations themselves are kept closed: the equation compares how
    they are composed, never what they compute. -/
theorem out_eq (V : Valuation τ sig (Elt F)) :
    after ops V (main_v35 : DevRef τ sig) = refOut (V (main_arg0 : DevRef τ sig)) (V (main_arg1 : DevRef τ sig)) := by
  simp only [after_cons, after_nil]
  rfl

set_option maxRecDepth 16384 in
/-- No operation of the line writes the first argument's buffer. -/
theorem arg0_eq (V : Valuation τ sig (Elt F)) :
    after ops V (main_arg0 : DevRef τ sig) = V (main_arg0 : DevRef τ sig) := by
  simp only [after_cons, after_nil]
  rfl

set_option maxRecDepth 16384 in
/-- No operation of the line writes the second argument's buffer. -/
theorem arg1_eq (V : Valuation τ sig (Elt F)) :
    after ops V (main_arg1 : DevRef τ sig) = V (main_arg1 : DevRef τ sig) := by
  simp only [after_cons, after_nil]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches buffers of the one core only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub ..,
    ternary_bufs_sub .., nullary_bufs_sub .., unary_bufs_sub .., nullary_bufs_sub .., binary_bufs_sub ..,
    nullary_bufs_sub .., ternary_bufs_sub .., unary_bufs_sub .., binary_bufs_sub .., nullary_bufs_sub ..,
    unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub ..,
    nullary_bufs_sub .., unary_bufs_sub .., binary_bufs_sub .., ternary_bufs_sub .., nullary_bufs_sub ..,
    reshape_bufs_sub .., unary_bufs_sub .., nullary_bufs_sub .., reshape_bufs_sub .., unary_bufs_sub ..,
    nullary_bufs_sub .., unary_bufs_sub .., nullary_bufs_sub .., unary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., nullary_bufs_sub .., unary_bufs_sub .., binary_bufs_sub .., nullary_bufs_sub ..,
    unary_bufs_sub .., binary_bufs_sub .., ternary_bufs_sub .., nullary_bufs_sub .., unary_bufs_sub ..,
    binary_bufs_sub .., nullary_bufs_sub .., unary_bufs_sub .., binary_bufs_sub .., ternary_bufs_sub ..,
    unary_bufs_sub .., unary_bufs_sub .., unary_bufs_sub .., unary_bufs_sub .., nary_bufs_sub .., ternary_bufs_sub ..⟩

set_option maxRecDepth 8192 in
/-- Every weakly fair execution of the program terminates with each buffer at the line's fold over the contents the
    execution started from. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Line

/-- Every weakly fair execution of the reference's program at the ideal instance terminates with the result array at
    `refOut` of the argument arrays and the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = refOut (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c main_v35).trans (Line.out_eq _), (h c main_arg0).trans (Line.arg0_eq _),
      (h c main_arg1).trans (Line.arg1_eq _)⟩)
    (Line.run m ρ)

end Cert.Unpool.Ref

end
-- ==== Proof.RefIdx.lean ====
/-
  The reference's scatter indices read at one input element: the four components are the element's batch, the output
  row and output column its index word names, and the element's channel, each as a signed integer.
-/
import proofs.«415876_j9646496547553_2_alg».proof.Proof.RefTerm
import proofs.«415876_j9646496547553_2_alg».proof.Proof.Spec
import Idealize.ShloMosaic.Lib.ValueIdx
import Idealize.ShloMosaic.Lib.Pipeline.Value
import Idealize.ShloMosaic.Lib.ValueLayout
import Idealize.ShloMosaic.Lib.StableHlo.Predicate

noncomputable section

namespace Cert.Unpool.Ref

open Idealize.ShloMosaic Idealize.ShloMosaic.ValueIdx Cert.ReferenceIdeal Cert.Unpool
open Idealize.ShloMosaic.StableHlo.Predicate

/-! ## One word: signed division and remainder of a non-negative word by a positive one -/

/-- A word below 2³¹ has a clear top bit. -/
theorem msb_false_of_lt {n : BitVec 32} (hn : n.toNat < 2 ^ 31) : n.msb = false :=
  BitVec.msb_eq_false_iff_two_mul_lt.mpr (by omega)

/-- A positive divisor below 2³¹ is neither 0 nor −1: the signed division has no corner. -/
theorem not_corner_of_pos' (n : BitVec 32) {d : BitVec 32} (hd0 : 0 < d.toNat) (hd : d.toNat < 2 ^ 31) :
    ¬ IntOp.SDivCorner n d := by
  rintro (h | ⟨_, h⟩)
  · subst h; simp at hd0
  · subst h; exact absurd hd (by decide)

/-- The truncating signed quotient of a non-negative word by a positive one is the quotient of their values. -/
theorem divsi_toNat (u : ArithUnit) {n d : BitVec 32} (hn : n.toNat < 2 ^ 31) (hd0 : 0 < d.toNat) (hd : d.toNat < 2 ^ 31) :
    (IntOp.divsi u n d).toNat = n.toNat / d.toNat := by
  simp only [IntOp.divsi, if_neg (not_corner_of_pos' n hd0 hd), BitVec.sdiv_eq, msb_false_of_lt hn, msb_false_of_lt hd,
    BitVec.udiv_eq, BitVec.toNat_udiv]

/-- The truncating signed remainder of a non-negative word by a positive one is the remainder of their values. -/
theorem remsi_toNat (u : ArithUnit) {n d : BitVec 32} (hn : n.toNat < 2 ^ 31) (hd0 : 0 < d.toNat) (hd : d.toNat < 2 ^ 31) :
    (IntOp.remsi u n d).toNat = n.toNat % d.toNat := by
  simp only [IntOp.remsi, if_neg (not_corner_of_pos' n hd0 hd), BitVec.srem_eq, msb_false_of_lt hn, msb_false_of_lt hd,
    BitVec.umod_eq, BitVec.toNat_umod]

/-- A non-negative word is not below zero. -/
theorem slt_zero_of_nonneg {r : BitVec 32} (hr : r.toNat < 2 ^ 31) : IntOp.cmpi .slt r 0#32 = 0#1 := by
  apply eq_zero_of_ne_one
  intro h
  have := (slt_iff_toNat hr (by decide)).mp h
  simp at this

/-- Floor division on one pair of words: the truncating quotient, less one where the signs differ and the remainder
    is not zero. -/
def floorDivW (n d : BitVec 32) : BitVec 32 :=
  Scalar.select
    (IntOp.andi
      (IntOp.cmpi .ne (if n = 0 then (0 : BitVec 32) else if n.msb then -1 else 1)
        (if d = 0 then (0 : BitVec 32) else if d.msb then -1 else 1))
      (IntOp.cmpi .ne (IntOp.remsi .host n d) 0#32))
    (IntOp.subi (IntOp.divsi .host n d) 1#32) (IntOp.divsi .host n d)

/-- On a non-negative word and a positive divisor the floor division is the quotient of the values: either the word is
    0 and the remainder is 0, or the two signs are both 1; the correction never fires. -/
theorem floorDivW_toNat {n d : BitVec 32} (hn : n.toNat < 2 ^ 31) (hd0 : 0 < d.toNat) (hd : d.toNat < 2 ^ 31) :
    (floorDivW n d).toNat = n.toNat / d.toNat := by
  have hq := divsi_toNat .host hn hd0 hd
  have hr := remsi_toNat .host hn hd0 hd
  have hdne : d ≠ 0 := by rintro rfl; simp at hd0
  have hc : IntOp.andi
      (IntOp.cmpi .ne (if n = 0 then (0 : BitVec 32) else if n.msb then -1 else 1)
        (if d = 0 then (0 : BitVec 32) else if d.msb then -1 else 1))
      (IntOp.cmpi .ne (IntOp.remsi .host n d) 0#32) = 0#1 := by
    by_cases h0 : n = 0
    · have hz : IntOp.remsi .host n d = 0#32 := by
        apply BitVec.eq_of_toNat_eq; rw [hr, h0]; simp
      rw [hz]; simp [IntOp.andi, IntOp.cmpi]
    · rw [if_neg h0, if_neg hdne, msb_false_of_lt hn, msb_false_of_lt hd]; simp [IntOp.andi, IntOp.cmpi]
  unfold floorDivW
  rw [hc, select_zero]; exact hq

/-- The floor remainder on one pair of words: the truncating remainder by the divisor (1 in place of 0), plus the
    divisor where the remainder is not zero and its sign differs from the divisor's. -/
def remainderW (n d : BitVec 32) : BitVec 32 :=
  Scalar.select
    (IntOp.andi
      (IntOp.cmpi .ne (IntOp.cmpi .slt (IntOp.remsi .host n (Scalar.select (IntOp.cmpi .eq d 0#32) 1#32 d)) 0#32)
        (IntOp.cmpi .slt (Scalar.select (IntOp.cmpi .eq d 0#32) 1#32 d) 0#32))
      (IntOp.cmpi .ne (IntOp.remsi .host n (Scalar.select (IntOp.cmpi .eq d 0#32) 1#32 d)) 0#32))
    (IntOp.addi (IntOp.remsi .host n (Scalar.select (IntOp.cmpi .eq d 0#32) 1#32 d)) (Scalar.select (IntOp.cmpi .eq d 0#32) 1#32 d))
    (IntOp.remsi .host n (Scalar.select (IntOp.cmpi .eq d 0#32) 1#32 d))

/-- On a non-negative word and a positive divisor the remainder is the remainder of the values: the divisor is kept,
    neither the truncating remainder nor the divisor is negative, so nothing is added. -/
theorem remainderW_toNat {n d : BitVec 32} (hn : n.toNat < 2 ^ 31) (hd0 : 0 < d.toNat) (hd : d.toNat < 2 ^ 31) :
    (remainderW n d).toNat = n.toNat % d.toNat := by
  have hr := remsi_toNat .host hn hd0 hd
  have hdne : d ≠ 0 := by rintro rfl; simp at hd0
  have hd' : Scalar.select (IntOp.cmpi .eq d 0#32) 1#32 d = d := by
    unfold Scalar.select
    exact if_neg (fun h => hdne (cmpi_eq_iff.mp h))
  have hrlt : (IntOp.remsi .host n d).toNat < 2 ^ 31 := by
    rw [hr]; exact lt_of_le_of_lt (Nat.mod_le _ _) hn
  unfold remainderW
  rw [hd', slt_zero_of_nonneg hrlt, slt_zero_of_nonneg hd]
  rw [show IntOp.andi (IntOp.cmpi .ne 0#1 0#1) (IntOp.cmpi .ne (IntOp.remsi .host n d) 0#32) = 0#1 from by
    simp [IntOp.andi, IntOp.cmpi]]
  rw [select_zero]; exact hr

/-! ## The stacked index array read at one element -/

/-- A component as a last axis of extent 1, read at position 0 of that axis, is the component. -/
theorem asColumn_apply (v : IVec S16x64x64x128 32) (b : Fin 16) (h w : Fin 64) (c : Fin 128) :
    asColumn v (ix5 b h w c (0 : Fin 1)) = v (ix4 b h w c) :=
  broadcastInDim_apply _ _ v _ (ix4 b h w c) (by
    intro a
    match a with
    | ⟨0, _⟩ => rfl
    | ⟨1, _⟩ => rfl
    | ⟨2, _⟩ => rfl
    | ⟨3, _⟩ => rfl)

/-- Four components stacked along a last axis: position k of that axis reads component k. -/
theorem stack4_apply (v0 v1 v2 v3 : IVec S16x64x64x128 32)
    (hc : Shape.Concatenates [S16x64x64x128x1, S16x64x64x128x1, S16x64x64x128x1, S16x64x64x128x1] S16x64x64x128x4 4)
    (b : Fin 16) (h w : Fin 64) (c : Fin 128) (k : Fin 4) :
    concatenate S16x64x64x128x4 4
        [⟨S16x64x64x128x1, asColumn v0⟩, ⟨S16x64x64x128x1, asColumn v1⟩, ⟨S16x64x64x128x1, asColumn v2⟩,
          ⟨S16x64x64x128x1, asColumn v3⟩] hc (ix5 b h w c k)
      = (![v0, v1, v2, v3] k) (ix4 b h w c) := by
  have hoff : ∀ b' : Fin 5, b'.cast (rfl : S16x64x64x128x1.rank = S16x64x64x128x4.rank) ≠ (4 : Fin 5) →
      ((ix5 b h w c (0 : Fin 1)) b').val = ((ix5 b h w c k) (b'.cast rfl)).val := by
    intro b' hb'
    match b' with
    | ⟨0, _⟩ => rfl
    | ⟨1, _⟩ => rfl
    | ⟨2, _⟩ => rfl
    | ⟨3, _⟩ => rfl
    | ⟨4, _⟩ => exact absurd rfl hb'
  let xs : List ((s : Shape) × (s.Idx → BitVec 32)) :=
    [⟨S16x64x64x128x1, asColumn v0⟩, ⟨S16x64x64x128x1, asColumn v1⟩, ⟨S16x64x64x128x1, asColumn v2⟩,
      ⟨S16x64x64x128x1, asColumn v3⟩]
  match k with
  | ⟨0, _⟩ =>
    exact (concatenate_apply_piece (t := S16x64x64x128x4) (4 : Fin 5) xs hc (ix5 b h w c _) 0 (by show (0 : ℕ) < 4; omega) S16x64x64x128x1 (asColumn v0) rfl rfl 0 rfl
      (ix5 b h w c (0 : Fin 1)) hoff rfl).trans (asColumn_apply v0 b h w c)
  | ⟨1, _⟩ =>
    exact (concatenate_apply_piece (t := S16x64x64x128x4) (4 : Fin 5) xs hc (ix5 b h w c _) 1 (by show (1 : ℕ) < 4; omega) S16x64x64x128x1 (asColumn v1) rfl rfl 1 rfl
      (ix5 b h w c (0 : Fin 1)) hoff rfl).trans (asColumn_apply v1 b h w c)
  | ⟨2, _⟩ =>
    exact (concatenate_apply_piece (t := S16x64x64x128x4) (4 : Fin 5) xs hc (ix5 b h w c _) 2 (by show (2 : ℕ) < 4; omega) S16x64x64x128x1 (asColumn v2) rfl rfl 2 rfl
      (ix5 b h w c (0 : Fin 1)) hoff rfl).trans (asColumn_apply v2 b h w c)
  | ⟨3, _⟩ =>
    exact (concatenate_apply_piece (t := S16x64x64x128x4) (4 : Fin 5) xs hc (ix5 b h w c _) 3 (by show (3 : ℕ) < 4; omega) S16x64x64x128x1 (asColumn v3) rfl rfl 3 rfl
      (ix5 b h w c (0 : Fin 1)) hoff rfl).trans (asColumn_apply v3 b h w c)

/-- The batch component is the batch coordinate as a word. -/
theorem batchIdx_apply (b : Fin 16) (h w : Fin 64) (c : Fin 128) : batchIdx (ix4 b h w c) = BitVec.ofNat 32 b.val := by
  refine (broadcastInDim_apply _ _ _ (ix4 b h w c) (ix4 b (0 : Fin 1) (0 : Fin 1) (0 : Fin 1)) (by
    intro a
    match a with
    | ⟨0, _⟩ => rfl
    | ⟨1, _⟩ => rfl
    | ⟨2, _⟩ => rfl
    | ⟨3, _⟩ => rfl)).trans ?_
  refine (shapeCast_apply _ _ (ix4 b (0 : Fin 1) (0 : Fin 1) (0 : Fin 1)) (ix1 b) (by
    rw [Shape.rowMajor_val_four, Shape.rowMajor_val_one]
    show b.val = ((b.val * 1 + 0) * 1 + 0) * 1 + 0
    omega)).trans ?_
  rfl

/-- The channel component is the channel coordinate as a word. -/
theorem chanIdx_apply (b : Fin 16) (h w : Fin 64) (c : Fin 128) : chanIdx (ix4 b h w c) = BitVec.ofNat 32 c.val := by
  refine (broadcastInDim_apply _ _ _ (ix4 b h w c) (ix4 (0 : Fin 1) (0 : Fin 1) (0 : Fin 1) c) (by
    intro a
    match a with
    | ⟨0, _⟩ => rfl
    | ⟨1, _⟩ => rfl
    | ⟨2, _⟩ => rfl
    | ⟨3, _⟩ => rfl)).trans ?_
  refine (shapeCast_apply _ _ (ix4 (0 : Fin 1) (0 : Fin 1) (0 : Fin 1) c) (ix1 c) (by
    rw [Shape.rowMajor_val_four, Shape.rowMajor_val_one]
    show c.val = ((0 * 1 + 0) * 1 + 0) * 128 + c.val
    omega)).trans ?_
  rfl

/-! ## The pointwise operations read at one element -/

/-- A non-negative component is left as it is by the wrap of negative indices. -/
theorem wrap_apply_of_nonneg (v : IVec S16x64x64x128 32) (n : BitVec 32) (i : S16x64x64x128.Idx)
    (hv : (v i).toNat < 2 ^ 31) : wrap v n i = v i := by
  show Scalar.select (IntOp.cmpi .slt (v i) 0#32) (IntOp.addi (v i) n) (v i) = v i
  rw [slt_zero_of_nonneg hv, select_zero]

/-- The floor division of an array by a constant, at one element, is the floor division of that element's word. -/
theorem floorDiv_apply (x : IVec S16x64x64x128 32) (d : BitVec 32) (i : S16x64x64x128.Idx) :
    floorDiv x (constantI S_ 32 d) i = floorDivW (x i) d := rfl

/-- The floor remainder of an array by a constant, at one element, is the floor remainder of that element's word. -/
theorem remainder_apply (x : IVec S16x64x64x128 32) (d : BitVec 32) (i : S16x64x64x128.Idx) :
    remainder x (constantI S_ 32 d) i = remainderW (x i) d := rfl

/-- A word inside the window of a pooled position is below 2²¹, so it is not negative. -/
theorem toNat_lt_of_inWindow {n : BitVec 32} {h w : Fin 64} (hw : InWindow n h w) : n.toNat < 2 ^ 31 := by
  obtain ⟨h1, -⟩ := hw
  have := h.isLt
  omega

/-! ## The four components -/

/-- Component 0 is the element's batch. -/
theorem refIdx_batch (a : IVec S16x64x64x128 32) (b : Fin 16) (h w : Fin 64) (c : Fin 128) :
    (refIdx a (ix5 b h w c (0 : Fin 4))).toInt = (b.val : Int) := by
  have e : refIdx a (ix5 b h w c (0 : Fin 4)) = wrap batchIdx 16#32 (ix4 b h w c) :=
    stack4_apply _ _ _ _ _ b h w c 0
  have hb : (batchIdx (ix4 b h w c)).toNat = b.val := by
    rw [batchIdx_apply, BitVec.toNat_ofNat]
    exact Nat.mod_eq_of_lt (by have := b.isLt; omega)
  have hlt : (batchIdx (ix4 b h w c)).toNat < 2 ^ 31 := by rw [hb]; have := b.isLt; omega
  rw [e, wrap_apply_of_nonneg _ _ _ hlt, toInt_eq_toNat_of_lt hlt, hb]

/-- Component 1 is the output row the element's index word names. -/
theorem refIdx_row (a : IVec S16x64x64x128 32) (b : Fin 16) (h w : Fin 64) (c : Fin 128)
    (hw : InWindow (a (ix4 b h w c)) h w) :
    (refIdx a (ix5 b h w c (1 : Fin 4))).toInt = (((a (ix4 b h w c)).toNat / 16384 : ℕ) : Int) := by
  have hn := toNat_lt_of_inWindow hw
  have e : refIdx a (ix5 b h w c (1 : Fin 4)) = wrap (rowIdx a) 128#32 (ix4 b h w c) :=
    stack4_apply _ _ _ _ _ b h w c 1
  have hr : (rowIdx a (ix4 b h w c)).toNat = (a (ix4 b h w c)).toNat / 16384 := by
    show (floorDiv a (constantI S_ 32 16384#32) (ix4 b h w c)).toNat = _
    rw [floorDiv_apply]
    exact floorDivW_toNat hn (by decide) (by decide)
  have hlt : (rowIdx a (ix4 b h w c)).toNat < 2 ^ 31 := by rw [hr]; omega
  rw [e, wrap_apply_of_nonneg _ _ _ hlt, toInt_eq_toNat_of_lt hlt, hr]

/-- Component 2 is the output column the element's index word names. -/
theorem refIdx_col (a : IVec S16x64x64x128 32) (b : Fin 16) (h w : Fin 64) (c : Fin 128)
    (hw : InWindow (a (ix4 b h w c)) h w) :
    (refIdx a (ix5 b h w c (2 : Fin 4))).toInt = (((a (ix4 b h w c)).toNat % 16384 / 128 : ℕ) : Int) := by
  have hn := toNat_lt_of_inWindow hw
  have e : refIdx a (ix5 b h w c (2 : Fin 4)) = wrap (colIdx a) 128#32 (ix4 b h w c) :=
    stack4_apply _ _ _ _ _ b h w c 2
  have hm : (remainder a (constantI S_ 32 16384#32) (ix4 b h w c)).toNat = (a (ix4 b h w c)).toNat % 16384 := by
    rw [remainder_apply]
    exact remainderW_toNat hn (by decide) (by decide)
  have hcl : (colIdx a (ix4 b h w c)).toNat = (a (ix4 b h w c)).toNat % 16384 / 128 := by
    show (floorDiv (remainder a (constantI S_ 32 16384#32)) (constantI S_ 32 128#32) (ix4 b h w c)).toNat = _
    rw [floorDiv_apply]
    refine (floorDivW_toNat (by rw [hm]; omega) (by decide) (by decide)).trans ?_
    exact congrArg (· / 128) hm
  have hlt : (colIdx a (ix4 b h w c)).toNat < 2 ^ 31 := by rw [hcl]; omega
  rw [e, wrap_apply_of_nonneg _ _ _ hlt, toInt_eq_toNat_of_lt hlt, hcl]

/-- Component 3 is the element's channel. -/
theorem refIdx_chan (a : IVec S16x64x64x128 32) (b : Fin 16) (h w : Fin 64) (c : Fin 128) :
    (refIdx a (ix5 b h w c (3 : Fin 4))).toInt = (c.val : Int) := by
  have e : refIdx a (ix5 b h w c (3 : Fin 4)) = wrap chanIdx 128#32 (ix4 b h w c) :=
    stack4_apply _ _ _ _ _ b h w c 3
  have hcv : (chanIdx (ix4 b h w c)).toNat = c.val := by
    rw [chanIdx_apply, BitVec.toNat_ofNat]
    exact Nat.mod_eq_of_lt (by have := c.isLt; omega)
  have hlt : (chanIdx (ix4 b h w c)).toNat < 2 ^ 31 := by rw [hcv]; have := c.isLt; omega
  rw [e, wrap_apply_of_nonneg _ _ _ hlt, toInt_eq_toNat_of_lt hlt, hcv]

end Cert.Unpool.Ref

end
-- ==== Proof.LibScatterPoint4.lean ====
/-
  An accumulating scatter of scalars into a rank-4 array at full four-component positions, read at an index on the
  extended reals.

  The scatter takes an operand `x : [B, Y, X, C]`, updates `upd : [b, h, w, c]` and indices `idx : [b, h, w, c, 4]`
  whose last axis holds the four components of a position, with an `add` body: no update window axis, all four operand
  axes inserted window axes, component k naming operand axis k. Update element (p, q, r, t) lands on the operand
  element whose four coordinates are its four index components read signed (NOT clamped; a position outside the
  operand is dropped). So an element of the result is the operand's element plus the sum of the updates whose four
  components are its coordinates.
-/
import Idealize.ShloMosaic.Lib.ValueIdx
import Idealize.ShloMosaic.PureOps.Ideal.Laws

noncomputable section

namespace Idealize.ShloMosaic.ValueIdx

section PointScatter4

variable {B Y X C b h w c : Nat}

/-- Those dimension numbers for an operand `[B, Y, X, C]`, scatter indices `[b, h, w, c, 4]` and updates `[b, h, w, c]`. -/
abbrev pointScatterDims4 (B Y X C b h w c : Nat)
    (wf : ScatterDims.WF ⟨4, ![B, Y, X, C]⟩ ⟨5, ![b, h, w, c, 4]⟩ ⟨4, ![b, h, w, c]⟩ [] [0, 1, 2, 3] [0, 1, 2, 3] 4) :
    ScatterDims ⟨4, ![B, Y, X, C]⟩ ⟨5, ![b, h, w, c, 4]⟩ ⟨4, ![b, h, w, c]⟩ where
  updateWindowDims := []
  insertedWindowDims := [0, 1, 2, 3]
  scatterDimsToOperandDims := [0, 1, 2, 3]
  indexVectorDim := 4
  wf := wf

variable (wf : ScatterDims.WF ⟨4, ![B, Y, X, C]⟩ ⟨5, ![b, h, w, c, 4]⟩ ⟨4, ![b, h, w, c]⟩ [] [0, 1, 2, 3] [0, 1, 2, 3] 4)

/-- Every operand axis is an inserted window axis: none is left for an update window. -/
theorem ps4_not_mem_sKept (a : Fin 4) : a ∉ (pointScatterDims4 B Y X C b h w c wf).sKept := by
  show a ∉ (List.finRange 4).filter (fun a => a ∉ [(0 : Fin 4), 1, 2, 3])
  revert a; decide

/-- On every operand axis the window coordinate is `0`: an update is one scalar. -/
theorem ps4_window (j : (⟨4, ![b, h, w, c]⟩ : Shape).Idx) (a : Fin 4) :
    (pointScatterDims4 B Y X C b h w c wf).window j a = 0 := by
  unfold ScatterDims.window
  rw [dif_neg (ps4_not_mem_sKept wf a)]

/-- On operand axis `a` the window starts at component `a` of the update's position, read signed. -/
theorem ps4_start {v : Nat} (idx : IVec ⟨5, ![b, h, w, c, 4]⟩ v) (p : Fin b) (q : Fin h) (r : Fin w) (t : Fin c) (a : Fin 4) :
    (pointScatterDims4 B Y X C b h w c wf).start (ix4 p q r t) idx a = (idx (ix5 p q r t a)).toInt := by
  unfold ScatterDims.start
  have hmem : a ∈ (pointScatterDims4 B Y X C b h w c wf).scatterDimsToOperandDims := by
    show a ∈ [(0 : Fin 4), 1, 2, 3]
    revert a; decide
  rw [dif_pos hmem]
  congr 2
  funext e
  refine Fin.ext ?_
  match a, e with
  | ⟨0, _⟩, ⟨0, _⟩ => rfl
  | ⟨0, _⟩, ⟨1, _⟩ => rfl
  | ⟨0, _⟩, ⟨2, _⟩ => rfl
  | ⟨0, _⟩, ⟨3, _⟩ => rfl
  | ⟨0, _⟩, ⟨4, _⟩ => rfl
  | ⟨1, _⟩, ⟨0, _⟩ => rfl
  | ⟨1, _⟩, ⟨1, _⟩ => rfl
  | ⟨1, _⟩, ⟨2, _⟩ => rfl
  | ⟨1, _⟩, ⟨3, _⟩ => rfl
  | ⟨1, _⟩, ⟨4, _⟩ => rfl
  | ⟨2, _⟩, ⟨0, _⟩ => rfl
  | ⟨2, _⟩, ⟨1, _⟩ => rfl
  | ⟨2, _⟩, ⟨2, _⟩ => rfl
  | ⟨2, _⟩, ⟨3, _⟩ => rfl
  | ⟨2, _⟩, ⟨4, _⟩ => rfl
  | ⟨3, _⟩, ⟨0, _⟩ => rfl
  | ⟨3, _⟩, ⟨1, _⟩ => rfl
  | ⟨3, _⟩, ⟨2, _⟩ => rfl
  | ⟨3, _⟩, ⟨3, _⟩ => rfl
  | ⟨3, _⟩, ⟨4, _⟩ => rfl

/-- Update element `(p, q, r, t)` lands on operand element `(p', q', r', t')` iff its four index components, read signed,
    are those four coordinates. -/
theorem ps4_resultIdx_iff {v : Nat} (idx : IVec ⟨5, ![b, h, w, c, 4]⟩ v) (p : Fin b) (q : Fin h) (r : Fin w) (t : Fin c)
    (p' : Fin B) (q' : Fin Y) (r' : Fin X) (t' : Fin C) :
    (pointScatterDims4 B Y X C b h w c wf).resultIdx? (ix4 p q r t) idx = some (ix4 p' q' r' t')
      ↔ (idx (ix5 p q r t (0 : Fin 4))).toInt = (p'.val : Int) ∧ (idx (ix5 p q r t (1 : Fin 4))).toInt = (q'.val : Int)
        ∧ (idx (ix5 p q r t (2 : Fin 4))).toInt = (r'.val : Int) ∧ (idx (ix5 p q r t (3 : Fin 4))).toInt = (t'.val : Int) := by
  have hp := p'.isLt
  have hq := q'.isLt
  have hr := r'.isLt
  have ht := t'.isLt
  unfold ScatterDims.resultIdx?
  simp only [ps4_start, ps4_window]
  split
  · rename_i hall
    have h0 := hall 0
    have h1 := hall 1
    have h2 := hall 2
    have h3 := hall 3
    rw [Option.some.injEq]
    constructor
    · intro he
      have e0 : ((idx (ix5 p q r t (0 : Fin 4))).toInt + ((0 : Nat) : Int)).toNat = p'.val := congrArg (fun f => (f 0).val) he
      have e1 : ((idx (ix5 p q r t (1 : Fin 4))).toInt + ((0 : Nat) : Int)).toNat = q'.val := congrArg (fun f => (f 1).val) he
      have e2 : ((idx (ix5 p q r t (2 : Fin 4))).toInt + ((0 : Nat) : Int)).toNat = r'.val := congrArg (fun f => (f 2).val) he
      have e3 : ((idx (ix5 p q r t (3 : Fin 4))).toInt + ((0 : Nat) : Int)).toNat = t'.val := congrArg (fun f => (f 3).val) he
      refine ⟨by omega, by omega, by omega, by omega⟩
    · rintro ⟨e0, e1, e2, e3⟩
      funext a
      refine Fin.ext ?_
      match a with
      | ⟨0, _⟩ =>
        show ((idx (ix5 p q r t (0 : Fin 4))).toInt + ((0 : Nat) : Int)).toNat = p'.val
        omega
      | ⟨1, _⟩ =>
        show ((idx (ix5 p q r t (1 : Fin 4))).toInt + ((0 : Nat) : Int)).toNat = q'.val
        omega
      | ⟨2, _⟩ =>
        show ((idx (ix5 p q r t (2 : Fin 4))).toInt + ((0 : Nat) : Int)).toNat = r'.val
        omega
      | ⟨3, _⟩ =>
        show ((idx (ix5 p q r t (3 : Fin 4))).toInt + ((0 : Nat) : Int)).toNat = t'.val
        omega
  · rename_i hn
    constructor
    · intro he; cases he
    · rintro ⟨e0, e1, e2, e3⟩
      refine absurd (fun a => ?_) hn
      match a with
      | ⟨0, _⟩ =>
        show 0 ≤ (idx (ix5 p q r t (0 : Fin 4))).toInt + ((0 : Nat) : Int) ∧ (idx (ix5 p q r t (0 : Fin 4))).toInt + ((0 : Nat) : Int) < (B : Int)
        omega
      | ⟨1, _⟩ =>
        show 0 ≤ (idx (ix5 p q r t (1 : Fin 4))).toInt + ((0 : Nat) : Int) ∧ (idx (ix5 p q r t (1 : Fin 4))).toInt + ((0 : Nat) : Int) < (Y : Int)
        omega
      | ⟨2, _⟩ =>
        show 0 ≤ (idx (ix5 p q r t (2 : Fin 4))).toInt + ((0 : Nat) : Int) ∧ (idx (ix5 p q r t (2 : Fin 4))).toInt + ((0 : Nat) : Int) < (X : Int)
        omega
      | ⟨3, _⟩ =>
        show 0 ≤ (idx (ix5 p q r t (3 : Fin 4))).toInt + ((0 : Nat) : Int) ∧ (idx (ix5 p q r t (3 : Fin 4))).toInt + ((0 : Nat) : Int) < (C : Int)
        omega

end PointScatter4

end Idealize.ShloMosaic.ValueIdx

end
-- ==== Proof.RefValue.lean ====
/-
  Under the window condition the reference's scatter-add is `unpool`.

  The reference adds the input element at (b, h, w, c) to the output element (b, row, column, c), where row and column
  are decoded from the element's index word n: row = n / 16384, column = (n mod 16384) / 128. When n lies in the window
  of (h, w), the row is 2h or 2h + 1 and the column 2w or 2w + 1, so the only input element that can land on the output
  element (b, Y, X, c) is the one at (b, Y / 2, X / 2, c), and it does land there exactly when the row's lowest bit
  (bit 14 of n) is Y's parity and the column's lowest bit (bit 7 of n) is X's parity. The sum over the landing updates
  has at most that one term, added to a zero.
-/
import proofs.«415876_j9646496547553_2_alg».proof.Proof.RefTerm
import proofs.«415876_j9646496547553_2_alg».proof.Proof.Spec
import proofs.«415876_j9646496547553_2_alg».proof.Proof.RefIdx
import proofs.«415876_j9646496547553_2_alg».proof.Proof.LibScatterPoint4

noncomputable section

namespace Cert.Unpool.Ref

open Idealize.ShloMosaic Idealize.ShloMosaic.ValueIdx Cert.ReferenceIdeal Cert.Unpool

/-- For a word in the window of (Y / 2, ·): its row is Y iff bit 14 of the word is Y's parity. -/
theorem row_iff (n Y : ℕ) (hn : n / 32768 = Y / 2) :
    n / 16384 = Y ↔ (Nat.testBit n 14 = decide (Y % 2 = 1)) := by
  rw [Nat.testBit_eq_decide_div_mod_eq, decide_eq_decide]
  have : (2 : ℕ) ^ 14 = 16384 := by norm_num
  rw [this]
  omega

/-- For a word in the window of (·, X / 2): its column is X iff bit 7 of the word is X's parity. -/
theorem col_iff (n X : ℕ) (hn : n / 256 % 64 = X / 2) (hX : X < 128) :
    n % 16384 / 128 = X ↔ (Nat.testBit n 7 = decide (X % 2 = 1)) := by
  rw [Nat.testBit_eq_decide_div_mod_eq, decide_eq_decide]
  have : (2 : ℕ) ^ 7 = 128 := by norm_num
  rw [this]
  omega

/-- The reference's scatter dimension numbers are the four-component point scatter's. -/
theorem scatter_eq :
    scatter_S16x128x128x128_S16x64x64x128x4_S16x64x64x128_n_0123_0123_4
      = pointScatterDims4 16 128 128 128 16 64 64 128
          Facts₀.scatter_S16x128x128x128_S16x64x64x128x4_S16x64x64x128_n_0123_0123_4_wf := rfl

/-- Which input elements land on the output element (b', Y', X', c'): under the window condition only the one at
    (b', Y' / 2, X' / 2, c'), and only when its word's bits 14 and 7 are the parities of Y' and X'. -/
theorem lands_iff (a : IVec S16x64x64x128 32)
    (hwin : ∀ (b : Fin 16) (h w : Fin 64) (c : Fin 128), InWindow (a (ix4 b h w c)) h w)
    (b : Fin 16) (h w : Fin 64) (c : Fin 128) (b' : Fin 16) (Y' X' : Fin 128) (c' : Fin 128) :
    scatter_S16x128x128x128_S16x64x64x128x4_S16x64x64x128_n_0123_0123_4.resultIdx? (ix4 b h w c) (refIdx a)
        = some (ix4 b' Y' X' c')
      ↔ (b = b' ∧ h = half Y' ∧ w = half X' ∧ c = c')
        ∧ (a (ix4 b h w c)).getLsbD 14 = decide (Y'.val % 2 = 1) ∧ (a (ix4 b h w c)).getLsbD 7 = decide (X'.val % 2 = 1) := by
  rw [scatter_eq, ps4_resultIdx_iff, refIdx_batch, refIdx_row a b h w c (hwin b h w c), refIdx_col a b h w c (hwin b h w c),
    refIdx_chan]
  obtain ⟨h1, h2⟩ := hwin b h w c
  have hY := Y'.isLt
  have hX := X'.isLt
  have hh := h.isLt
  have hw' := w.isLt
  simp only [BitVec.getLsbD, Nat.cast_inj, Fin.ext_iff, half]
  constructor
  · rintro ⟨e0, e1, e2, e3⟩
    have g1 : (a (ix4 b h w c)).toNat / 32768 = Y'.val / 2 := by omega
    have g2 : (a (ix4 b h w c)).toNat / 256 % 64 = X'.val / 2 := by omega
    exact ⟨⟨e0, by omega, by omega, e3⟩, (row_iff _ _ g1).mp e1, (col_iff _ _ g2 hX).mp e2⟩
  · rintro ⟨⟨e0, e1, e2, e3⟩, r1, r2⟩
    have g1 : (a (ix4 b h w c)).toNat / 32768 = Y'.val / 2 := by omega
    have g2 : (a (ix4 b h w c)).toNat / 256 % 64 = X'.val / 2 := by omega
    exact ⟨e0, (row_iff _ _ g1).mpr r1, (col_iff _ _ g2 hX).mpr r2, e3⟩

/-- THE REFERENCE'S VALUE: under the window condition the scatter-add into zeros is `unpool`. -/
theorem refOut_eq_unpool (x : FVec Ideal S16x64x64x128 .f32) (a : IVec S16x64x64x128 32)
    (hwin : ∀ (b : Fin 16) (h w : Fin 64) (c : Fin 128), InWindow (a (ix4 b h w c)) h w) :
    refOut (F := Ideal) x a = unpool x a := by
  funext i
  obtain ⟨b', Y', X', c', rfl⟩ : ∃ (b' : Fin 16) (Y' X' c' : Fin 128), i = ix4 b' Y' X' c' :=
    ⟨i 0, i 1, i 2, i 3, eq_ix4 i⟩
  show Ideal.hostScatterAdd scatter_S16x128x128x128_S16x64x64x128x4_S16x64x64x128_n_0123_0123_4
      (broadcastInDim S16x128x128x128 ![] Facts₀.bcast_S_S16x128x128x128 (constant (F := Ideal) S_ .f32 0x00000000#32))
      (refIdx a) x (ix4 b' Y' X' c') = pick x a b' Y' X' c'
  unfold Ideal.hostScatterAdd
  have hz : (broadcastInDim S16x128x128x128 ![] Facts₀.bcast_S_S16x128x128x128
      (constant (F := Ideal) S_ .f32 0x00000000#32) : S16x128x128x128.Idx → EReal) (ix4 b' Y' X' c') = 0 := by
    show Ideal.ofBits .f32 0x00000000#32 = 0
    exact Ideal.ofBits_zero_f32
  rw [hz, zero_add, Finset.sum_filter]
  rw [Finset.sum_eq_single (ix4 b' (half Y') (half X') c')]
  · unfold pick
    refine if_congr ?_ rfl rfl
    rw [lands_iff a hwin]
    simp only [true_and, and_self]
  · intro j _ hj
    obtain ⟨b, h, w, c, rfl⟩ : ∃ (b : Fin 16) (h w : Fin 64) (c : Fin 128), j = ix4 b h w c :=
      ⟨j 0, j 1, j 2, j 3, eq_ix4 j⟩
    rw [if_neg]
    rw [lands_iff a hwin]
    rintro ⟨⟨rfl, rfl, rfl, rfl⟩, -⟩
    exact hj rfl
  · intro hn
    exact absurd (Finset.mem_univ _) hn

end Cert.Unpool.Ref

end
-- ==== Proof.PreDecode.lean ====
/-
  Reading the precondition: if the printed predicate holds of the two argument arrays, then every index word names an
  output position inside the 2×2 window of its own pooled position.
-/
import proofs.«415876_j9646496547553_2_alg».proof.Pre_finite_inputs
import proofs.«415876_j9646496547553_2_alg».proof.Proof.Gen.Pre_finite_inputs
import proofs.«415876_j9646496547553_2_alg».proof.Proof.Spec
import Idealize.ShloMosaic.Lib.ReduceAll
import Idealize.ShloMosaic.Lib.StableHlo.Predicate

noncomputable section

namespace Cert.Unpool

open Idealize.ShloMosaic Idealize.ShloMosaic.ValueIdx

/-- An arithmetic shift right by 15 that gives a small non-negative number: the shifted word is itself non-negative
    (the shift keeps the sign bit), so the shift is the logical one, and the word's value divided by 2^15 is that number. -/
theorem shift15_eq (n : BitVec 32) (k : Nat) (hk : k < 64) (h : n.sshiftRight' 15#32 = BitVec.ofNat 32 k) :
    n.msb = false ∧ n.toNat / 32768 = k := by
  have hs : n.sshiftRight 15 = BitVec.ofNat 32 k := h
  have hm : n.msb = false := by
    have := congrArg BitVec.msb hs
    rw [BitVec.msb_sshiftRight] at this
    rw [this]
    exact BitVec.msb_eq_false_iff_two_mul_lt.mpr (by simp only [BitVec.toNat_ofNat]; omega)
  refine ⟨hm, ?_⟩
  rw [BitVec.sshiftRight_eq_of_msb_false hm] at hs
  have := congrArg BitVec.toNat hs
  simp only [BitVec.toNat_ushiftRight, BitVec.toNat_ofNat, Nat.shiftRight_eq_div_pow] at this
  omega

/-- For a non-negative word, the arithmetic shift right by 8 masked to its six low bits is the word's value divided by
    256, taken modulo 64 (63 = 2^6 - 1, and masking by 2^6 - 1 is the remainder modulo 2^6). -/
theorem shift8_mask_eq (n : BitVec 32) (k : Nat) (hk : k < 64) (hm : n.msb = false)
    (h : (n.sshiftRight' 8#32) &&& 63#32 = BitVec.ofNat 32 k) : (n.toNat / 256) % 64 = k := by
  have hs : (n.sshiftRight 8) &&& 63#32 = BitVec.ofNat 32 k := h
  rw [BitVec.sshiftRight_eq_of_msb_false hm] at hs
  have := congrArg BitVec.toNat hs
  simp only [BitVec.toNat_and, BitVec.toNat_ushiftRight, BitVec.toNat_ofNat, Nat.shiftRight_eq_div_pow] at this
  rw [show (63 % 2 ^ 32 : Nat) = 2 ^ 6 - 1 from by decide, Nat.and_two_pow_sub_one_eq_mod] at this
  omega

/-- A host arithmetic shift by an amount below the width is the word's arithmetic shift. -/
theorem shrsi_host_of_lt (n y : BitVec 32) (hy : y.toNat < 32) : IntOp.shrsi .host n y = n.sshiftRight' y := by
  unfold IntOp.shrsi; exact if_pos hy

/-- The scalar shape has one index. -/
instance : Subsingleton Cert.Pre_finite_inputs.S_.Idx := ⟨fun _ _ => funext fun d => d.elim0⟩

/-- Under the precondition every index word lies in its own window. -/
theorem window_of_pre (x : FVec Ideal SIn .f32) (a : IVec SIn 32)
    (hpre : Cert.Pre_finite_inputs.fn (F := Ideal) x a = fun _ => 1#1) :
    ∀ (b : Fin 16) (h w : Fin 64) (c : Fin 128), InWindow (a (ix4 b h w c)) h w := by
  intro b h w c
  -- the predicate at its one index is a conjunction of three all-reductions; the second and third are the windows
  have h0 := congrFun hpre ix0
  dsimp only [Cert.Pre_finite_inputs.fn, Cert.Pre_finite_inputs.fn_part1] at h0
  obtain ⟨h12, h3⟩ := IntOp.andi_eq_one.1 h0
  obtain ⟨_, h2⟩ := IntOp.andi_eq_one.1 h12
  -- each all-reduction by "and" that is 1 has a 1 at every element: read it at (b, h, w, c)
  have e2 := Host.reduce_andi_all _ _ _ _ _ h2 (ix4 b h w c)
  have e3 := Host.reduce_andi_all _ _ _ _ _ h3 (ix4 b h w c)
  -- at that element the comparisons are of the shifted word with the row coordinate h, resp. the column coordinate w
  have k2 : IntOp.cmpi .eq (IntOp.shrsi .host (a (ix4 b h w c)) 15#32) (BitVec.ofNat 32 h.val) = 1#1 := e2
  have k3 : IntOp.cmpi .eq (IntOp.andi (IntOp.shrsi .host (a (ix4 b h w c)) 8#32) 63#32) (BitVec.ofNat 32 w.val) = 1#1 := e3
  have q2 := StableHlo.Predicate.cmpi_eq_iff.1 k2
  have q3 := StableHlo.Predicate.cmpi_eq_iff.1 k3
  rw [shrsi_host_of_lt _ _ (by decide)] at q2 q3
  obtain ⟨hm, hA⟩ := shift15_eq _ h.val h.isLt q2
  unfold InWindow
  exact ⟨hA, shift8_mask_eq _ w.val w.isLt hm q3⟩

end Cert.Unpool

end
-- ==== Proof.lean ====
/-
  A 2×2 max-unpool: the kernel places each pooled element at the corner of its own 2×2 output window that two bits of
  its index word select; the reference decodes every index word into an output row and column and scatter-adds.

  Under the precondition — every float input finite, and every index word naming a position inside the window of its own
  pooled position — the two agree: a word in its window decodes to row 2h + (bit 14) and column 2w + (bit 7), so the
  scatter-add never collides and each output element receives at most the one pooled element of its window
  (Proof/RefValue.lean), which is what the kernel writes (Proof/KernelValue.lean). Both results are the one function
  `unpool` of the argument arrays (Proof/Spec.lean). Nothing here uses finiteness: zero plus an extended real is that
  extended real.

  The three frames: the kernel's two are the launch of its one region at every grid point with the reshape after it; the
  reference's is its straight line of host operations with the result forgotten. The idealization rewrote nothing.
-/
import proofs.«415876_j9646496547553_2_alg».proof.Defs
import proofs.«415876_j9646496547553_2_alg».proof.Proof.Gen.Kernel
import proofs.«415876_j9646496547553_2_alg».proof.Proof.Gen.Kernel.Skeleton
import proofs.«415876_j9646496547553_2_alg».proof.Proof.Gen.Kernel.Launch
import proofs.«415876_j9646496547553_2_alg».proof.Proof.Gen.Kernel.Points
import proofs.«415876_j9646496547553_2_alg».proof.Proof.Gen.Kernel.Frame
import proofs.«415876_j9646496547553_2_alg».proof.Proof.Gen.KernelIdeal
import proofs.«415876_j9646496547553_2_alg».proof.Proof.Gen.KernelIdeal.Skeleton
import proofs.«415876_j9646496547553_2_alg».proof.Proof.Gen.KernelIdeal.Launch
import proofs.«415876_j9646496547553_2_alg».proof.Proof.Gen.KernelIdeal.Points
import proofs.«415876_j9646496547553_2_alg».proof.Proof.Gen.KernelIdeal.Frame
import proofs.«415876_j9646496547553_2_alg».proof.Proof.Gen.ReferenceIdeal
import proofs.«415876_j9646496547553_2_alg».proof.Proof.Gen.Pre_finite_inputs
import proofs.«415876_j9646496547553_2_alg».proof.Proof.KernelValue
import proofs.«415876_j9646496547553_2_alg».proof.Proof.RefRun
import proofs.«415876_j9646496547553_2_alg».proof.Proof.RefValue
import proofs.«415876_j9646496547553_2_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.Unpool.Ref.ref_run m ρ)

/-- The idealization rewrote no operation. -/
theorem preserves : Cert.preserves_Kernel_KernelIdeal := trivial

/-- From memories agreeing on the arguments both programs end at `unpool` of the arguments: the kernel always, the
    reference because the precondition puts every index word in its own window. -/
theorem algebraic : Cert.algebraic_KernelIdeal_ReferenceIdeal := by
  intro m ρ m' ρ' hpre hagree
  refine ⟨fun c => Cert.Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Unpool.Kernel.kernel_run m ρ, ?_⟩
  refine (θ_run Cert.ReferenceIdeal.defs _ _).mono (fun _ h c => ⟨(h c).1.trans ?_, (h c).2⟩)
    (Cert.Unpool.Ref.ref_run m' ρ')
  rw [(hagree c).1, (hagree c).2]
  exact Cert.Unpool.Ref.refOut_eq_unpool _ _ (Cert.Unpool.window_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
